-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4096x1024 : Shape := ⟨2, ![4096, 1024]⟩
abbrev S1024x1024 : Shape := ⟨2, ![1024, 1024]⟩
abbrev S256x1024 : Shape := ⟨2, ![256, 1024]⟩
abbrev S512x1024 : Shape := ⟨2, ![512, 1024]⟩
abbrev S512x1 : Shape := ⟨2, ![512, 1]⟩
abbrev S512 : Shape := ⟨1, ![512]⟩

abbrev nBuf : Space → Nat
  | .hbm => 10
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S512x1024, .bf16⟩
  | .local _ .vmem, ⟨16, _⟩ => ⟨S512x1024, .bf16⟩
  | .local _ .vmem, ⟨17, _⟩ => ⟨S4096x1024, .bf16⟩
  | .local _ .vmem, ⟨18, _⟩ => ⟨S4096x1024, .bf16⟩
  | .local _ .vmem, ⟨19, _⟩ => ⟨S512x1024, .f32⟩
  | .local _ .vmem, ⟨20, _⟩ => ⟨S512x1024, .f32⟩
  | .local _ .vmem, ⟨21, _⟩ => ⟨S512x1, .f32⟩
  | .local _ .vmem, ⟨22, _⟩ => ⟨S512x1, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

@[reducible] def k1_t1_loop : Scf.Loop 32 :=
  let c0_i32 : BitVec 32 := 0#32
  let c4_i32 : BitVec 32 := 4#32
  let v14 : BitVec 32 := Scalar.addi c0_i32 c4_i32
  let c1_i32 : BitVec 32 := 1#32
  ⟨c0_i32, v14, c1_i32⟩
def k1_mult1 (k1_t1 : Fin k1_t1_loop.trips) : BitVec 32 :=
  let c0_i32_18 : BitVec 32 := 0#32
  let c0_i32 : BitVec 32 := 0#32
  let c1_i32 : BitVec 32 := 1#32
  let arg8 : BitVec 32 := Scf.iv c0_i32 c1_i32 k1_t1
  let c1_i32_17 : BitVec 32 := 1#32
  let v22 : BitVec 32 := Scalar.muli arg8 c1_i32_17
  let v23 : BitVec 32 := Scalar.addi c0_i32_18 v22
  let c1024_i32 : BitVec 32 := 1024#32
  let v24 : BitVec 32 := Scalar.muli v23 c1024_i32
  v24
def k1_off1 (k1_t1 : Fin k1_t1_loop.trips) : Fin 2 → Nat :=
  let c0_i32_18 : BitVec 32 := 0#32
  let c0_i32 : BitVec 32 := 0#32
  let c1_i32 : BitVec 32 := 1#32
  let arg8 : BitVec 32 := Scf.iv c0_i32 c1_i32 k1_t1
  let c1_i32_17 : BitVec 32 := 1#32
  let v22 : BitVec 32 := Scalar.muli arg8 c1_i32_17
  let v23 : BitVec 32 := Scalar.addi c0_i32_18 v22
  let c1024_i32 : BitVec 32 := 1024#32
  let v24 : BitVec 32 := Scalar.muli v23 c1024_i32
  let v25 : BitVec 32 := v24
  let v26 : Index := Scalar.indexCast v25
  let c0_19 : Index := 0#32
  ![v26.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S256x1024_S256x1024_0_0 : (Rect.unit (s := S256x1024) ![0, 0] S256x1024.size inb_S256x1024_S256x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S1024x1024 : S1024x1024.ShapeCasts S1024x1024
  reduces_S512x1024_S512 : S512x1024.Reduces [1] S512
  shapeCasts_S512_S512x1 : S512.ShapeCasts S512x1
  broadcasts_S512x1_S512x1024 : S512x1.Broadcasts S512x1024
  dot_S256x1024_S1024x1024_S256x1024_1_1_0_0_n_n_wf : DotDims.WF S256x1024 S1024x1024 S256x1024 [1] [1] [0] [0] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .bf16 = 32 ∨ (Rect.block (s := S4096x1024) S256x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .bf16 = 32 ∨ (Rect.block (s := S4096x1024) S256x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .bf16 = 32 ∨ (Rect.block (s := S4096x1024) S256x1024.size (cc0_transform_8 i) (hinb0_8 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x1024.size a ≤ S4096x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x4096, .f32⟩
  | .hbm, ⟨26, _⟩ => ⟨S4096x4096, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_1_0_0_n_n_wf : DotDims.WF S4096x1024 S1024x1024 S4096x1024 [1] [1] [0] [0] [] []
  dot_S4096x1024_S4096x1024_S4096x4096_1_1_0_0_n_n_wf : DotDims.WF S4096x1024 S4096x1024 S4096x4096 [1] [1] [0] [0] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_1_0_0_n_n : DotDims S4096x1024 S1024x1024 S4096x1024 where
  lhsContracting := [1]
  rhsContracting := [1]
  lhsNonContracting := [0]
  rhsNonContracting := [0]
  lhsBatch := []
  rhsBatch := []
  wf := dot_S4096x1024_S1024x1024_S4096x1024_1_1_0_0_n_n_wf
def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibDotNT.lean ====
/-
  A·Bᵀ read at an index, at the ideal values.

  For the dimension numbers "contract the LAST axis of both rank-2 operands" — an M×K left operand against an N×K right
  operand, `DotDims.transposedRhs M K N`, the form a kernel writes when it multiplies by a weight matrix stored
  [out, in] without transposing it — the (a, b) entry of the product is the sum over the contracted coordinate c of
  A[a, c] · B[b, c]. Stated for the kernel's `tpu.matmul` into the zero accumulator (`matmul_abT_zero_apply`) and for
  the host's `dot_general` (`dotGeneral_abT_apply`), each for ANY record equal to `DotDims.transposedRhs M K N` (a printed
  program's own record is one by `rfl`), and once more with the operand entries named by the caller
  (`matmul_abT_zero_apply_of_eq`), for operands that are themselves format changes or re-layings of loaded blocks.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat}

/-- The left operand's index at output (a, b) and contraction position c is (a, c): the free axis follows the output's
    row, the contracted axis the position. -/
theorem lhsIdx_transposedRhs (a : Fin M) (b : Fin N) (c : Fin K) :
    (DotDims.transposedRhs M K N).lhsIdx (ix2 a b) ((contrEquiv1 (DotDims.transposedRhs M K N) K rfl rfl).symm c) = ix2 a c := by
  have hc := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact hc

/-- The right operand's index there is (b, c): its free axis follows the output's COLUMN, and it too is contracted on its
    last axis. -/
theorem rhsIdx_transposedRhs (a : Fin M) (b : Fin N) (c : Fin K) :
    (DotDims.transposedRhs M K N).rhsIdx (ix2 a b) ((contrEquiv1 (DotDims.transposedRhs M K N) K rfl rfl).symm c) = ix2 b c := by
  have hc := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact hc

/-- A `tpu.matmul` with these dimension numbers into the zero accumulator, read at (a, b): ∑ c, A[a, c] · B[b, c]. -/
theorem matmul_abT_zero_apply {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N) :
    matmul d prec A B (constant ⟨2, ![M, N]⟩ .f32 0x00000000#32) (ix2 a b) = ∑ c : Fin K, A (ix2 a c) * B (ix2 b c) := by
  subst hd
  show FloatOps.matmul _ prec A B _ (ix2 a b) = _
  rw [Ideal.matmul_constant_zero_apply, ← Equiv.sum_comp (contrEquiv1 (DotDims.transposedRhs M K N) K rfl rfl).symm]
  refine Finset.sum_congr rfl fun c _ => ?_
  rw [lhsIdx_transposedRhs, rhsIdx_transposedRhs]

/-- The same with the operands' entries named: whatever A and B are known to be at (a, c) and (b, c). -/
theorem matmul_abT_zero_apply_of_eq {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N)
    (L R : Fin K → EReal) (hl : ∀ c, A (ix2 a c) = L c) (hr : ∀ c, B (ix2 b c) = R c) :
    matmul d prec A B (constant ⟨2, ![M, N]⟩ .f32 0x00000000#32) (ix2 a b) = ∑ c : Fin K, L c * R c :=
  (matmul_abT_zero_apply d hd prec A B a b).trans (Finset.sum_congr rfl fun c _ => by rw [hl c, hr c])

/-- The host's `dot_general` with these dimension numbers, read at (a, b): the same sum. -/
theorem dotGeneral_abT_apply {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N) :
    Host.dotGeneral d prec A B (ix2 a b) = ∑ c : Fin K, A (ix2 a c) * B (ix2 b c) := by
  subst hd
  show FloatOps.dotGeneral _ prec _ A B (ix2 a b) = _
  rw [Ideal.dotGeneral_apply, ← Equiv.sum_comp (contrEquiv1 (DotDims.transposedRhs M K N) K rfl rfl).symm]
  refine Finset.sum_congr rfl fun c _ => ?_
  rw [lhsIdx_transposedRhs, rhsIdx_transposedRhs]

end Idealize.ShloMosaic.DotNT

end
-- ==== Proof.ProjValue.lean ====
/-
  The projection kernel's three result arrays.

  Each grid point multiplies a block of 256 rows of an input by the transpose of its whole weight matrix (the query product
  also by 1/32) and writes the block of 256 rows of the result; the sixteen blocks tile the 4096 rows. So the three arrays
  the kernel leaves are, entry by entry, the sums over the contracted coordinate of input times weight.
-/
import proofs.«415637_j66340064854151_3_alg».proof.Proof.Gen.KernelIdeal.Frame
import proofs.«415637_j66340064854151_3_alg».proof.Proof.LibDotNT
import Idealize.ShloMosaic.Lib.Pipeline.Value
import Idealize.ShloMosaic.Lib.ValueIdx

set_option maxRecDepth 16384

noncomputable section

namespace Cert.KernelIdeal.ProjValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The six input arrays as the projection kernel finds them, and the three arrays it leaves, at their literal types. -/
abbrev xqA (c : Dev nD) : FVec Ideal S4096x1024 .f32 := V c main_arg0
abbrev xkA (c : Dev nD) : FVec Ideal S4096x1024 .f32 := V c main_arg1
abbrev xvA (c : Dev nD) : FVec Ideal S4096x1024 .f32 := V c main_arg2
abbrev wqA (c : Dev nD) : FVec Ideal S1024x1024 .f32 := V c main_arg3
abbrev wkA (c : Dev nD) : FVec Ideal S1024x1024 .f32 := V c main_arg4
abbrev wvA (c : Dev nD) : FVec Ideal S1024x1024 .f32 := V c main_arg5
abbrev qOut (c : Dev nD) : FVec Ideal S4096x1024 .bf16 := (dat0 (F := Ideal) V c).arrAt 6 cfg0.N
abbrev kOut (c : Dev nD) : FVec Ideal S4096x1024 .bf16 := (dat0 (F := Ideal) V c).arrAt 7 cfg0.N
abbrev vOut (c : Dev nD) : FVec Ideal S4096x1024 .bf16 := (dat0 (F := Ideal) V c).arrAt 8 cfg0.N

/-! ## The zero offsets, and the whole-array products -/

theorem hz : (![0, 0] : Fin 2 → Nat) = fun _ => 0 := funext fun a => by fin_cases a <;> rfl

/-- `x · wᵀ` as one function of the index: entry `(r, e)` is `∑ d, x[r, d] · w[e, d]`. -/
def proj (x : FVec Ideal S4096x1024 .f32) (w : FVec Ideal S1024x1024 .f32) : FVec Ideal S4096x1024 .bf16 :=
  fun i => ∑ d : Fin 1024, x (ix2 (i 0) d) * w (ix2 (i 1) d)

/-- The same, every entry multiplied by the splat constant (1/32). -/
def projScaled (x : FVec Ideal S4096x1024 .f32) (w : FVec Ideal S1024x1024 .f32) : FVec Ideal S4096x1024 .bf16 :=
  fun i => proj x w i * Ideal.ofBits .f32 0x3D000000#32

/-! ## The body's payloads at an index -/

/-- The record of the kernel's product is "contract the last axis of both operands". -/
theorem dot_eq : dot_S256x1024_S1024x1024_S256x1024_1_1_0_0_n_n = DotDims.transposedRhs 256 1024 1024 := rfl

/-- The query payload at `(a, b)`: the format changes are the identity on extended reals, the product into the zero
    accumulator is the sum over the contracted coordinate, and the broadcast constant multiplies it. -/
theorem pay_q_apply (x : Vec Ideal S256x1024 .f32) (w : Vec Ideal S1024x1024 .f32) (a : Fin 256) (b : Fin 1024) :
    k0_pay1 x w (ix2 a b) = (∑ d : Fin 1024, x (ix2 a d) * w (ix2 b d)) * Ideal.ofBits .f32 0x3D000000#32 := by
  unfold k0_pay1
  exact congrArg (· * Ideal.ofBits .f32 0x3D000000#32)
    (DotNT.matmul_abT_zero_apply _ dot_eq none (truncf .bf16 x bitsLt_bf16_f32) (truncf .bf16 w bitsLt_bf16_f32) a b)

/-- The key payload at `(a, b)`: the same product, unscaled. -/
theorem pay_k_apply (x : Vec Ideal S256x1024 .f32) (w : Vec Ideal S1024x1024 .f32) (a : Fin 256) (b : Fin 1024) :
    k0_pay2 x w (ix2 a b) = ∑ d : Fin 1024, x (ix2 a d) * w (ix2 b d) := by
  unfold k0_pay2
  exact DotNT.matmul_abT_zero_apply _ dot_eq none (truncf .bf16 x bitsLt_bf16_f32) (truncf .bf16 w bitsLt_bf16_f32) a b

/-- The value payload at `(a, b)`: the same again. -/
theorem pay_v_apply (x : Vec Ideal S256x1024 .f32) (w : Vec Ideal S1024x1024 .f32) (a : Fin 256) (b : Fin 1024) :
    k0_pay3 x w (ix2 a b) = ∑ d : Fin 1024, x (ix2 a d) * w (ix2 b d) := by
  unfold k0_pay3
  exact DotNT.matmul_abT_zero_apply _ dot_eq none (truncf .bf16 x bitsLt_bf16_f32) (truncf .bf16 w bitsLt_bf16_f32) a b

/-! ## The index maps over the grid -/

/-- Decided over the sixteen points: the row windows (inputs 0–2, outputs 6–8) sit at block `(t, 0)`, the weight windows
    (3–5) at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-! ## The input blocks as rows of the arrays -/

/-- Point `t`'s block of the query input is rows `256 t … 256 t + 255` of the array. -/
theorem xq_blk (c : Dev nD) (t : Fin cfg0.N) (a : Fin 256) (d : Fin 1024) (k : Fin 4096) (hk : k.val = t.val * 256 + a.val) :
    (iblk0 (F := Ideal) V c 0 t : Vec Ideal S256x1024 .f32) (ix2 a d) = xqA V c (ix2 k d) := by
  obtain ⟨⟨e0, e1⟩, -⟩ := idx_facts t
  unfold iblk0
  rw [View.read_apply]
  show V c main_arg0 _ = V c main_arg0 _
  congr 1
  funext ax; apply Fin.ext
  match ax with
  | ⟨0, _⟩ => show win0_0.index t (0 : Fin 2) * 256 + 1 * a.val = k.val; rw [e0, hk]; omega
  | ⟨1, _⟩ => show win0_0.index t (1 : Fin 2) * 1024 + 1 * d.val = d.val; rw [e1]; omega

/-- The same for the key input, -/
theorem xk_blk (c : Dev nD) (t : Fin cfg0.N) (a : Fin 256) (d : Fin 1024) (k : Fin 4096) (hk : k.val = t.val * 256 + a.val) :
    (iblk0 (F := Ideal) V c 1 t : Vec Ideal S256x1024 .f32) (ix2 a d) = xkA V c (ix2 k d) := by
  obtain ⟨-, ⟨e0, e1⟩, -⟩ := idx_facts t
  unfold iblk0
  rw [View.read_apply]
  show V c main_arg1 _ = V c main_arg1 _
  congr 1
  funext ax; apply Fin.ext
  match ax with
  | ⟨0, _⟩ => show win0_1.index t (0 : Fin 2) * 256 + 1 * a.val = k.val; rw [e0, hk]; omega
  | ⟨1, _⟩ => show win0_1.index t (1 : Fin 2) * 1024 + 1 * d.val = d.val; rw [e1]; omega

/-- and for the value input. -/
theorem xv_blk (c : Dev nD) (t : Fin cfg0.N) (a : Fin 256) (d : Fin 1024) (k : Fin 4096) (hk : k.val = t.val * 256 + a.val) :
    (iblk0 (F := Ideal) V c 2 t : Vec Ideal S256x1024 .f32) (ix2 a d) = xvA V c (ix2 k d) := by
  obtain ⟨-, -, ⟨e0, e1⟩, -⟩ := idx_facts t
  unfold iblk0
  rw [View.read_apply]
  show V c main_arg2 _ = V c main_arg2 _
  congr 1
  funext ax; apply Fin.ext
  match ax with
  | ⟨0, _⟩ => show win0_2.index t (0 : Fin 2) * 256 + 1 * a.val = k.val; rw [e0, hk]; omega
  | ⟨1, _⟩ => show win0_2.index t (1 : Fin 2) * 1024 + 1 * d.val = d.val; rw [e1]; omega

/-- Every point's block of the query weight is the whole matrix. -/
theorem wq_blk (c : Dev nD) (t : Fin cfg0.N) (b : Fin 1024) (d : Fin 1024) :
    (iblk0 (F := Ideal) V c 3 t : Vec Ideal S1024x1024 .f32) (ix2 b d) = wqA V c (ix2 b d) := by
  obtain ⟨-, -, -, ⟨e0, e1⟩, -⟩ := idx_facts t
  unfold iblk0
  rw [View.read_apply]
  show V c main_arg3 _ = V c main_arg3 _
  congr 1
  funext ax; apply Fin.ext
  match ax with
  | ⟨0, _⟩ => show win0_3.index t (0 : Fin 2) * 1024 + 1 * b.val = b.val; rw [e0]; omega
  | ⟨1, _⟩ => show win0_3.index t (1 : Fin 2) * 1024 + 1 * d.val = d.val; rw [e1]; omega

/-- The same for the key weight, -/
theorem wk_blk (c : Dev nD) (t : Fin cfg0.N) (b : Fin 1024) (d : Fin 1024) :
    (iblk0 (F := Ideal) V c 4 t : Vec Ideal S1024x1024 .f32) (ix2 b d) = wkA V c (ix2 b d) := by
  obtain ⟨-, -, -, -, ⟨e0, e1⟩, -⟩ := idx_facts t
  unfold iblk0
  rw [View.read_apply]
  show V c main_arg4 _ = V c main_arg4 _
  congr 1
  funext ax; apply Fin.ext
  match ax with
  | ⟨0, _⟩ => show win0_4.index t (0 : Fin 2) * 1024 + 1 * b.val = b.val; rw [e0]; omega
  | ⟨1, _⟩ => show win0_4.index t (1 : Fin 2) * 1024 + 1 * d.val = d.val; rw [e1]; omega

/-- and for the value weight. -/
theorem wv_blk (c : Dev nD) (t : Fin cfg0.N) (b : Fin 1024) (d : Fin 1024) :
    (iblk0 (F := Ideal) V c 5 t : Vec Ideal S1024x1024 .f32) (ix2 b d) = wvA V c (ix2 b d) := by
  obtain ⟨-, -, -, -, -, ⟨e0, e1⟩, -⟩ := idx_facts t
  unfold iblk0
  rw [View.read_apply]
  show V c main_arg5 _ = V c main_arg5 _
  congr 1
  funext ax; apply Fin.ext
  match ax with
  | ⟨0, _⟩ => show win0_5.index t (0 : Fin 2) * 1024 + 1 * b.val = b.val; rw [e0]; omega
  | ⟨1, _⟩ => show win0_5.index t (1 : Fin 2) * 1024 + 1 * d.val = d.val; rw [e1]; omega

/-! ## What each point writes back -/

/-- Point `t` writes back block `t` of the scaled query product of the arrays. -/
theorem flushed_q (c : Dev nD) (t : Fin cfg0.N) :
    (dat0 (F := Ideal) V c).flushed 6 t = ((cfg0.win 6).blk t).view.read (Elt Ideal) (projScaled (xqA V c) (wqA V c)) := by
  show (cfg0.win 6).cut (grid0.coords t) ((dat0 (F := Ideal) V c).after 6 t) = _
  rw [after0_6]
  unfold out0_6
  rw [View.canon_unit_zero hz]
  simp only [View.ld_unit_zero (S := S256x1024) hz, View.ld_unit_zero (S := S1024x1024) hz]
  obtain ⟨-, -, -, -, -, -, ⟨e0, e1⟩, -⟩ := idx_facts t
  funext j
  have hj0 : (j 0).val < 256 := (j 0).isLt
  have hj1 : (j 1).val < 1024 := (j 1).isLt
  have hN : t.val < 16 := t.isLt
  have hk : t.val * 256 + (j 0).val < 4096 := by omega
  have hemb : ((cfg0.win 6).blk t).view.emb j = ix2 (⟨t.val * 256 + (j 0).val, hk⟩ : Fin 4096) (⟨(j 1).val, hj1⟩ : Fin 1024) := by
    funext ax; apply Fin.ext
    match ax with
    | ⟨0, _⟩ => show win0_6.index t (0 : Fin 2) * 256 + 1 * (j 0).val = t.val * 256 + (j 0).val; rw [e0]; omega
    | ⟨1, _⟩ => show win0_6.index t (1 : Fin 2) * 1024 + 1 * (j 1).val = (j 1).val; rw [e1]; omega
  refine Eq.trans (b := k0_pay1 (iblk0 (F := Ideal) V c 0 t) (iblk0 (F := Ideal) V c 3 t) (ix2 (⟨(j 0).val, hj0⟩ : Fin 256) (⟨(j 1).val, hj1⟩ : Fin 1024)))
    (congrArg (k0_pay1 (iblk0 (F := Ideal) V c 0 t) (iblk0 (F := Ideal) V c 3 t)) (funext fun ax => by match ax with | ⟨0, _⟩ => rfl | ⟨1, _⟩ => rfl)) ?_
  refine (pay_q_apply (iblk0 (F := Ideal) V c 0 t) (iblk0 (F := Ideal) V c 3 t) ⟨(j 0).val, hj0⟩ ⟨(j 1).val, hj1⟩).trans ?_
  refine Eq.trans ?_ (congrArg (projScaled (xqA V c) (wqA V c)) hemb).symm
  refine congrArg (· * Ideal.ofBits .f32 0x3D000000#32) (Finset.sum_congr rfl fun d _ => ?_)
  rw [xq_blk V c t ⟨(j 0).val, hj0⟩ d ⟨t.val * 256 + (j 0).val, hk⟩ rfl, wq_blk V c t ⟨(j 1).val, hj1⟩ d]

/-- Point `t` writes back block `t` of the key product of the arrays. -/
theorem flushed_k (c : Dev nD) (t : Fin cfg0.N) :
    (dat0 (F := Ideal) V c).flushed 7 t = ((cfg0.win 7).blk t).view.read (Elt Ideal) (proj (xkA V c) (wkA V c)) := by
  show (cfg0.win 7).cut (grid0.coords t) ((dat0 (F := Ideal) V c).after 7 t) = _
  rw [after0_7]
  unfold out0_7
  rw [View.canon_unit_zero hz]
  simp only [View.ld_unit_zero (S := S256x1024) hz, View.ld_unit_zero (S := S1024x1024) hz]
  obtain ⟨-, -, -, -, -, -, -, ⟨e0, e1⟩, -⟩ := idx_facts t
  funext j
  have hj0 : (j 0).val < 256 := (j 0).isLt
  have hj1 : (j 1).val < 1024 := (j 1).isLt
  have hN : t.val < 16 := t.isLt
  have hk : t.val * 256 + (j 0).val < 4096 := by omega
  have hemb : ((cfg0.win 7).blk t).view.emb j = ix2 (⟨t.val * 256 + (j 0).val, hk⟩ : Fin 4096) (⟨(j 1).val, hj1⟩ : Fin 1024) := by
    funext ax; apply Fin.ext
    match ax with
    | ⟨0, _⟩ => show win0_7.index t (0 : Fin 2) * 256 + 1 * (j 0).val = t.val * 256 + (j 0).val; rw [e0]; omega
    | ⟨1, _⟩ => show win0_7.index t (1 : Fin 2) * 1024 + 1 * (j 1).val = (j 1).val; rw [e1]; omega
  refine Eq.trans (b := k0_pay2 (iblk0 (F := Ideal) V c 1 t) (iblk0 (F := Ideal) V c 4 t) (ix2 (⟨(j 0).val, hj0⟩ : Fin 256) (⟨(j 1).val, hj1⟩ : Fin 1024)))
    (congrArg (k0_pay2 (iblk0 (F := Ideal) V c 1 t) (iblk0 (F := Ideal) V c 4 t)) (funext fun ax => by match ax with | ⟨0, _⟩ => rfl | ⟨1, _⟩ => rfl)) ?_
  refine (pay_k_apply (iblk0 (F := Ideal) V c 1 t) (iblk0 (F := Ideal) V c 4 t) ⟨(j 0).val, hj0⟩ ⟨(j 1).val, hj1⟩).trans ?_
  refine Eq.trans ?_ (congrArg (proj (xkA V c) (wkA V c)) hemb).symm
  refine Finset.sum_congr rfl fun d _ => ?_
  rw [xk_blk V c t ⟨(j 0).val, hj0⟩ d ⟨t.val * 256 + (j 0).val, hk⟩ rfl, wk_blk V c t ⟨(j 1).val, hj1⟩ d]

/-- Point `t` writes back block `t` of the value product of the arrays. -/
theorem flushed_v (c : Dev nD) (t : Fin cfg0.N) :
    (dat0 (F := Ideal) V c).flushed 8 t = ((cfg0.win 8).blk t).view.read (Elt Ideal) (proj (xvA V c) (wvA V c)) := by
  show (cfg0.win 8).cut (grid0.coords t) ((dat0 (F := Ideal) V c).after 8 t) = _
  rw [after0_8]
  unfold out0_8
  rw [View.canon_unit_zero hz]
  simp only [View.ld_unit_zero (S := S256x1024) hz, View.ld_unit_zero (S := S1024x1024) hz]
  obtain ⟨-, -, -, -, -, -, -, -, e0, e1⟩ := idx_facts t
  funext j
  have hj0 : (j 0).val < 256 := (j 0).isLt
  have hj1 : (j 1).val < 1024 := (j 1).isLt
  have hN : t.val < 16 := t.isLt
  have hk : t.val * 256 + (j 0).val < 4096 := by omega
  have hemb : ((cfg0.win 8).blk t).view.emb j = ix2 (⟨t.val * 256 + (j 0).val, hk⟩ : Fin 4096) (⟨(j 1).val, hj1⟩ : Fin 1024) := by
    funext ax; apply Fin.ext
    match ax with
    | ⟨0, _⟩ => show win0_8.index t (0 : Fin 2) * 256 + 1 * (j 0).val = t.val * 256 + (j 0).val; rw [e0]; omega
    | ⟨1, _⟩ => show win0_8.index t (1 : Fin 2) * 1024 + 1 * (j 1).val = (j 1).val; rw [e1]; omega
  refine Eq.trans (b := k0_pay3 (iblk0 (F := Ideal) V c 2 t) (iblk0 (F := Ideal) V c 5 t) (ix2 (⟨(j 0).val, hj0⟩ : Fin 256) (⟨(j 1).val, hj1⟩ : Fin 1024)))
    (congrArg (k0_pay3 (iblk0 (F := Ideal) V c 2 t) (iblk0 (F := Ideal) V c 5 t)) (funext fun ax => by match ax with | ⟨0, _⟩ => rfl | ⟨1, _⟩ => rfl)) ?_
  refine (pay_v_apply (iblk0 (F := Ideal) V c 2 t) (iblk0 (F := Ideal) V c 5 t) ⟨(j 0).val, hj0⟩ ⟨(j 1).val, hj1⟩).trans ?_
  refine Eq.trans ?_ (congrArg (proj (xvA V c) (wvA V c)) hemb).symm
  refine Finset.sum_congr rfl fun d _ => ?_
  rw [xv_blk V c t ⟨(j 0).val, hj0⟩ d ⟨t.val * 256 + (j 0).val, hk⟩ rfl, wv_blk V c t ⟨(j 1).val, hj1⟩ d]

/-! ## The blocks tile the rows -/

/-- Row `r` of the query output lies in the block of point `r / 256`, which writes back. -/
theorem cover_q (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, ⟨e0, e1⟩, -⟩ := idx_facts t
  refine ⟨t, flush0_6 t, ?_⟩
  show i ∈ ((View.whole main_v0_0).slice (win0_6.rect t)).set
  rw [View.set_slice_whole, Rect.mem_set_unit]
  intro a
  match a with
  | ⟨0, _⟩ => show win0_6.index t (0 : Fin 2) * 256 ≤ (i 0).val ∧ (i 0).val < win0_6.index t (0 : Fin 2) * 256 + 256; rw [e0, ht]; omega
  | ⟨1, _⟩ => show win0_6.index t (1 : Fin 2) * 1024 ≤ (i 1).val ∧ (i 1).val < win0_6.index t (1 : Fin 2) * 1024 + 1024; rw [e1]; omega

/-- The same for the key output, -/
theorem cover_k (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, ⟨e0, e1⟩, -⟩ := idx_facts t
  refine ⟨t, flush0_7 t, ?_⟩
  show i ∈ ((View.whole main_v0_1).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; rw [e0, ht]; omega
  | ⟨1, _⟩ => show win0_7.index t (1 : Fin 2) * 1024 ≤ (i 1).val ∧ (i 1).val < win0_7.index t (1 : Fin 2) * 1024 + 1024; rw [e1]; omega

/-- and for the value output. -/
theorem cover_v (i : S4096x1024.Idx) :
    ∃ t : Fin cfg0.N, (cfg0.win 8).flush t = true ∧ i ∈ ((cfg0.win 8).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, -, -, e0, e1⟩ := idx_facts t
  refine ⟨t, flush0_8 t, ?_⟩
  show i ∈ ((View.whole main_v0_2).slice (win0_8.rect t)).set
  rw [View.set_slice_whole, Rect.mem_set_unit]
  intro a
  match a with
  | ⟨0, _⟩ => show win0_8.index t (0 : Fin 2) * 256 ≤ (i 0).val ∧ (i 0).val < win0_8.index t (0 : Fin 2) * 256 + 256; rw [e0, ht]; omega
  | ⟨1, _⟩ => show win0_8.index t (1 : Fin 2) * 1024 ≤ (i 1).val ∧ (i 1).val < win0_8.index t (1 : Fin 2) * 1024 + 1024; rw [e1]; omega

/-! ## The arrays the kernel leaves -/

/-- The query output ends holding the scaled product of the arrays, -/
theorem q_final (c : Dev nD) : qOut V c = projScaled (xqA V c) (wqA V c) :=
  (dat0 (F := Ideal) V c).arrAt_eq_of_cover 6 (projScaled (xqA V c) (wqA V c)) (fun t _ => flushed_q V c t) cover_q

/-- the key output the key product, -/
theorem k_final (c : Dev nD) : kOut V c = proj (xkA V c) (wkA V c) :=
  (dat0 (F := Ideal) V c).arrAt_eq_of_cover 7 (proj (xkA V c) (wkA V c)) (fun t _ => flushed_k V c t) cover_k

/-- and the value output the value product. -/
theorem v_final (c : Dev nD) : vOut V c = proj (xvA V c) (wvA V c) :=
  (dat0 (F := Ideal) V c).arrAt_eq_of_cover 8 (proj (xvA V c) (wvA V c)) (fun t _ => flushed_v V c t) cover_v

/-- The scaled query projection the kernel leaves: `(∑ d, xq[r, d] · wq[e, d]) · (1/32)`. -/
theorem q_arr (c : Dev nD) (r : Fin 4096) (e : Fin 1024) :
    qOut V c (ix2 r e) = (∑ d : Fin 1024, xqA V c (ix2 r d) * wqA V c (ix2 e d)) * Ideal.ofBits .f32 0x3D000000#32 := by
  rw [q_final]; rfl

/-- The key projection: `∑ d, xk[r, d] · wk[e, d]`. -/
theorem k_arr (c : Dev nD) (r : Fin 4096) (e : Fin 1024) :
    kOut V c (ix2 r e) = ∑ d : Fin 1024, xkA V c (ix2 r d) * wkA V c (ix2 e d) := by
  rw [k_final]; rfl

/-- The value projection: `∑ d, xv[r, d] · wv[e, d]`. -/
theorem v_arr (c : Dev nD) (r : Fin 4096) (e : Fin 1024) :
    vOut V c (ix2 r e) = ∑ d : Fin 1024, xvA V c (ix2 r d) * wvA V c (ix2 e d) := by
  rw [v_final]; rfl

end Cert.KernelIdeal.ProjValue

end
-- ==== Proof.AttnRun.lean ====
/-
  What the attention kernel leaves in its output block at one grid point, as a recursion over the chunks.

  The body resets three scratch buffers (running maximum, denominator, numerator), runs four trips — trip `k` loads rows
  `1024 k … 1024 k + 1023` of the resident keys and values and replaces the three scratch buffers by functions of their
  contents and of those two chunks — and stores numerator times reciprocal denominator. Every store covers its whole
  buffer, so a buffer read back after a store holds that store's payload: the scratch contents after `k` trips are the
  `k`-fold iterate `st` of the trip's three payloads from the reset values, and the output block is the final payload of
  the state after four trips.
-/
import proofs.«415637_j66340064854151_3_alg».proof.Proof.Gen.KernelIdeal.Frame
import Idealize.ShloMosaic.Lib.Pipeline.Value

set_option maxRecDepth 16384

noncomputable section

namespace Cert.KernelIdeal.AttnRun

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The whole-buffer rectangles of the two scratch shapes. -/
abbrev R1 : Rect S512x1 := Rect.unit (s := S512x1) ![0, 0] S512x1.size inb_S512x1_S512x1_0_0
abbrev R2 : Rect S512x1024 := Rect.unit (s := S512x1024) ![0, 0] S512x1024.size inb_S512x1024_S512x1024_0_0

/-- Chunk `k` of a resident array: its rows `1024 k … 1024 k + 1023`. -/
def chunk (X : Vec F S4096x1024 .bf16) (k : Fin k1_t1_loop.trips) : Vec F S1024x1024 .bf16 :=
  View.ld X (Rect.unit (s := S4096x1024) (k1_off1 k) S1024x1024.size (k1_off1_inb k))

/-- The scratch contents (maximum, denominator, numerator) after `k` trips. -/
def st (q : FVec F S512x1024 .bf16) (X2 X3 : Vec F S4096x1024 .bf16) :
    ℕ → FVec F S512x1 .f32 × FVec F S512x1 .f32 × FVec F S512x1024 .f32
  | 0 => (k1_pay1, k1_pay2, k1_pay3)
  | k + 1 =>
    if h : k < k1_t1_loop.trips then
      (k1_pay5 (k1_pay8 q (chunk X2 ⟨k, h⟩) (st q X2 X3 k).1),
        k1_pay11 q (chunk X2 ⟨k, h⟩) (st q X2 X3 k).1 (st q X2 X3 k).2.1,
        k1_pay12 q (chunk X2 ⟨k, h⟩) (chunk X3 ⟨k, h⟩) (st q X2 X3 k).1 (st q X2 X3 k).2.2)
    else st q X2 X3 k

/-- A load of a whole buffer after a list of stores whose LAST covers the buffer reads that store's payload. -/
theorem readAt_writes_head {sig : RefSig} {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.readAt (Elt F) (Rect.unit off S.size inb).toLoadRect (v.writes (Elt F) f (⟨Rect.unit off S.size inb, w⟩ :: L)) = w := by
  rw [View.readAt_eq_ld, View.read_writes_eq_canon v f _ (fun y => ⟨_, List.mem_cons_self, View.mem_set_unit_zero h inb y⟩),
    View.canon_cons_unit_zero h inb, View.ld_unit_zero h inb]

/-- No store leaves the contents as they were. -/
theorem writes_nil' {sig : RefSig} {κ : Kind} {sp : Space} {S : Shape} {e : EltTy} (v : View sig κ sp S e)
    (f : v.ty.Contents (Elt F)) : v.writes (Elt F) f [] = f := rfl

section Body

variable (c : Dev nD) (i : grid1.Coords) (arg1 : Memref sig .tc .vmem S512x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole)

/-- ONE TRIP's three stores, read off the trip's run once: into the maximum, the denominator and the numerator buffers,
    each the whole buffer, each a payload of the chunk loads and of what the trip finds in the scratch buffers. -/
theorem trip_pieces (v12 : Vec F S512x1024 .bf16) (X2 : BufTy.Contents (Elt F) arg2.view.ty) (X3 : BufTy.Contents (Elt F) arg3.view.ty)
    (k : Fin k1_t1_loop.trips) (f5 : BufTy.Contents (Elt F) arg5.view.ty) (f6 : BufTy.Contents (Elt F) arg6.view.ty)
    (f7 : BufTy.Contents (Elt F) arg7.view.ty) :
    tripL_k1_t1 (F := F) Variants.none c none i arg1 harg1 arg2 harg2 arg3 harg3 arg4 harg4 arg5 harg5 arg6 harg6 arg7 harg7 v12 X2 X3 k f5 f6 f7
      = ([⟨R1, k1_pay5 (k1_pay8 (k1_pay4 v12)
              (View.readAt (Elt F) arg2.view (Rect.unit (s := S4096x1024) (k1_off1 k) S1024x1024.size (k1_off1_inb k)).toLoadRect X2)
              (View.readAt (Elt F) arg5.view R1.toLoadRect f5))⟩],
         [⟨R1, k1_pay11 (k1_pay4 v12)
              (View.readAt (Elt F) arg2.view (Rect.unit (s := S4096x1024) (k1_off1 k) S1024x1024.size (k1_off1_inb k)).toLoadRect X2)
              (View.readAt (Elt F) arg5.view R1.toLoadRect f5) (View.readAt (Elt F) arg6.view R1.toLoadRect f6)⟩],
         [⟨R2, k1_pay12 (k1_pay4 v12)
              (View.readAt (Elt F) arg2.view (Rect.unit (s := S4096x1024) (k1_off1 k) S1024x1024.size (k1_off1_inb k)).toLoadRect X2)
              (View.readAt (Elt F) arg3.view (Rect.unit (s := S4096x1024) (k1_off1 k) S1024x1024.size (k1_off1_inb k)).toLoadRect X3)
              (View.readAt (Elt F) arg5.view R1.toLoadRect f5) (View.readAt (Elt F) arg7.view R2.toLoadRect f7)⟩]) := by
  unfold tripL_k1_t1
  unfold trip_k1_t1
  dsimp only
  sl_unfold_run_names
  rfl

variable (x0 : Vec F S512x1024 .bf16) (x1 x2 : Vec F S4096x1024 .bf16)

/-- The three scratch buffers' contents when the loop is entered: the resets, over anything. -/
abbrev G5 : BufTy.Contents (Elt F) arg5.view.ty := arg5.view.writes (Elt F) arg5.view.junk [⟨R1, k1_pay1⟩]
abbrev G6 : BufTy.Contents (Elt F) arg6.view.ty := arg6.view.writes (Elt F) arg6.view.junk [⟨R1, k1_pay2⟩]
abbrev G7 : BufTy.Contents (Elt F) arg7.view.ty := arg7.view.writes (Elt F) arg7.view.junk [⟨R2, k1_pay3⟩]

/-- The stores of the trips before `k`, per scratch buffer, from those entry contents (the run's own recursion). -/
abbrev pbk (v12 : Vec F S512x1024 .bf16) (k : ℕ) :=
  pb_k1_t1 (F := F) Variants.none c none i arg1 harg1 arg2 harg2 arg3 harg3 arg4 harg4 arg5 harg5 arg6 harg6 arg7 harg7 v12 (harg2.unread x1) (harg3.unread x2)
    (G5 (F := F) arg5) (G6 (F := F) arg6) (G7 (F := F) arg7) k

/-- A chunk load of a resident buffer holding `X` reads `X`'s chunk. -/
theorem read_chunk2 (k : Fin k1_t1_loop.trips) :
    View.readAt (Elt F) arg2.view (Rect.unit (s := S4096x1024) (k1_off1 k) S1024x1024.size (k1_off1_inb k)).toLoadRect (harg2.unread x1)
      = chunk x1 k := by
  rw [View.readAt_eq_ld, harg2.read_unread]; rfl
theorem read_chunk3 (k : Fin k1_t1_loop.trips) :
    View.readAt (Elt F) arg3.view (Rect.unit (s := S4096x1024) (k1_off1 k) S1024x1024.size (k1_off1_inb k)).toLoadRect (harg3.unread x2)
      = chunk x2 k := by
  rw [View.readAt_eq_ld, harg3.read_unread]; rfl

/-- After `k` trips the three scratch buffers read back as the `k`-fold iterate of the trip's payloads. -/
theorem scratch_after (v12 : Vec F S512x1024 .bf16) : ∀ k : ℕ, k ≤ k1_t1_loop.trips →
    View.readAt (Elt F) arg5.view R1.toLoadRect (arg5.view.writes (Elt F) (G5 (F := F) arg5) (pbk c i arg1 harg1 arg2 harg2 arg3 harg3 arg4 harg4 arg5 harg5 arg6 harg6 arg7 harg7 x1 x2 v12 k).1)
        = (st (k1_pay4 v12) x1 x2 k).1
      ∧ View.readAt (Elt F) arg6.view R1.toLoadRect (arg6.view.writes (Elt F) (G6 (F := F) arg6) (pbk c i arg1 harg1 arg2 harg2 arg3 harg3 arg4 harg4 arg5 harg5 arg6 harg6 arg7 harg7 x1 x2 v12 k).2.1)
        = (st (k1_pay4 v12) x1 x2 k).2.1
      ∧ View.readAt (Elt F) arg7.view R2.toLoadRect (arg7.view.writes (Elt F) (G7 (F := F) arg7) (pbk c i arg1 harg1 arg2 harg2 arg3 harg3 arg4 harg4 arg5 harg5 arg6 harg6 arg7 harg7 x1 x2 v12 k).2.2)
        = (st (k1_pay4 v12) x1 x2 k).2.2
  | 0, _ => by
    have e0 : pbk c i arg1 harg1 arg2 harg2 arg3 harg3 arg4 harg4 arg5 harg5 arg6 harg6 arg7 harg7 x1 x2 v12 0 = ([], [], []) := by unfold pbk; rw [pb_k1_t1.eq_1]
    have s0 : st (k1_pay4 v12) x1 x2 0 = (k1_pay1, k1_pay2, k1_pay3) := by rw [st]
    rw [e0, s0]
    dsimp only
    rw [writes_nil', writes_nil', writes_nil']
    refine ⟨?_, ?_, ?_⟩
    · exact readAt_writes_head arg5.view arg5.view.junk hz inb_S512x1_S512x1_0_0 (k1_pay1 (F := F)) []
    · exact readAt_writes_head arg6.view arg6.view.junk hz inb_S512x1_S512x1_0_0 (k1_pay2 (F := F)) []
    · exact readAt_writes_head arg7.view arg7.view.junk hz inb_S512x1024_S512x1024_0_0 (k1_pay3 (F := F)) []
  | k + 1, hk => by
    have hk' : k < k1_t1_loop.trips := hk
    obtain ⟨ih5, ih6, ih7⟩ := scratch_after v12 k (Nat.le_of_lt hk')
    have e := pb_k1_t1_succ (F := F) Variants.none c none i arg1 harg1 arg2 harg2 arg3 harg3 arg4 harg4 arg5 harg5 arg6 harg6 arg7 harg7 v12 (harg2.unread x1) (harg3.unread x2)
      (G5 (F := F) arg5) (G6 (F := F) arg6) (G7 (F := F) arg7) ⟨k, hk'⟩
    have es : st (k1_pay4 v12) x1 x2 (k + 1)
        = (k1_pay5 (k1_pay8 (k1_pay4 v12) (chunk x1 ⟨k, hk'⟩) (st (k1_pay4 v12) x1 x2 k).1),
            k1_pay11 (k1_pay4 v12) (chunk x1 ⟨k, hk'⟩) (st (k1_pay4 v12) x1 x2 k).1 (st (k1_pay4 v12) x1 x2 k).2.1,
            k1_pay12 (k1_pay4 v12) (chunk x1 ⟨k, hk'⟩) (chunk x2 ⟨k, hk'⟩) (st (k1_pay4 v12) x1 x2 k).1 (st (k1_pay4 v12) x1 x2 k).2.2) := by
      rw [st]; exact dif_pos hk'
    unfold pbk
    rw [show (k + 1) = ((⟨k, hk'⟩ : Fin k1_t1_loop.trips).val + 1) from rfl, e, es, trip_pieces]
    dsimp only
    rw [View.writes_append, View.writes_append, View.writes_append]
    refine ⟨?_, ?_, ?_⟩
    · rw [readAt_writes_head arg5.view _ hz, read_chunk2]
      exact congrArg (fun z => k1_pay5 (k1_pay8 (k1_pay4 v12) (chunk x1 ⟨k, hk'⟩) z)) ih5
    · rw [readAt_writes_head arg6.view _ hz, read_chunk2]
      exact congrArg₂ (fun z z' => k1_pay11 (k1_pay4 v12) (chunk x1 ⟨k, hk'⟩) z z') ih5 ih6
    · rw [readAt_writes_head arg7.view _ hz, read_chunk2, read_chunk3]
      exact congrArg₂ (fun z z' => k1_pay12 (k1_pay4 v12) (chunk x1 ⟨k, hk'⟩) (chunk x2 ⟨k, hk'⟩) z z') ih5 ih7

end Body

end Cert.KernelIdeal.AttnRun

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.AttnPay.lean ====
/-
  The attention kernel's arithmetic, entry by entry, on the extended reals.

  One chunk of the loop, at row `r`: the scores `s[r, c] = ∑ d, q[r, d] · k[c, d]`; the new maximum `m' = max m (max over c of s[r, c])`;
  the rescaling `e^(m - m')`; the weights `e^(s[r, c] - m')`; the new denominator and numerator. After the loop the output is the
  numerator times the reciprocal of the denominator. A change of float format is the identity on the extended reals.
-/
import proofs.«415637_j66340064854151_3_alg».proof.Proof.Gen.KernelIdeal.Skeleton
import proofs.«415637_j66340064854151_3_alg».proof.Proof.LibDotNT
import proofs.«415637_j66340064854151_3_alg».proof.Proof.LibPlainDot
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.AttnPay

open Cert.KernelIdeal Cert.KernelIdeal.Gen Idealize.ShloMosaic Idealize.ShloMosaic.ValueIdx

variable [Cert.KernelIdeal.Facts]

/-! ### Constants, and the two layout steps of a row statistic -/

/-- The pattern `0xFF800000` is `-∞`. -/
private theorem ofBits_negInf_f32 : Ideal.ofBits .f32 0xFF800000#32 = (⊥ : EReal) := by
  simp [Ideal.ofBits, Ideal.ieee]

/-- The pattern `0x3F800000` is one. -/
private theorem ofBits_one_f32' : Ideal.ofBits .f32 0x3F800000#32 = (1 : EReal) := by
  rw [show (1 : EReal) = ((1 : ℝ) : EReal) by norm_cast]
  simp [Ideal.ofBits, Ideal.ieee, -EReal.coe_mul]; norm_num

/-- A vector `[a]` viewed as a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, c)`, the column at `i`. -/
private theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The index a row reduction inserts coordinate `c` into, at row `r`, is `(r, c)`. -/
private theorem lift_row (h : S512x1024.Reduces [1] S512) (r : Fin 512) (c : Fin 1024) :
    h.lift (ix1 r) c = ix2 r c := by
  funext ax; apply Fin.ext
  match ax with
  | ⟨0, _⟩ => rfl
  | ⟨1, _⟩ => rfl

/-- The start of the running maximum is `-∞`, of the denominator and of the numerator zero. -/
theorem pay1_apply (i : S512x1.Idx) : (k1_pay1 (F := Ideal)) i = (⊥ : EReal) := by
  unfold k1_pay1
  rw [shapeCast_self]
  exact ofBits_negInf_f32
theorem pay2_apply (i : S512x1.Idx) : (k1_pay2 (F := Ideal)) i = (0 : EReal) := by
  unfold k1_pay2
  rw [shapeCast_self]
  exact Ideal.ofBits_zero_f32
theorem pay3_apply (i : S512x1024.Idx) : (k1_pay3 (F := Ideal)) i = (0 : EReal) := by
  unfold k1_pay3
  rw [shapeCast_self]
  exact Ideal.ofBits_zero_f32

/-- Re-laying a block in its own shape changes nothing. -/
theorem pay4_apply (x : FVec Ideal S512x1024 .bf16) (i : S512x1024.Idx) : k1_pay4 x i = x i := by
  unfold k1_pay4
  rw [shapeCast_self]
theorem pay5_apply (x : FVec Ideal S512x1 .f32) (i : S512x1.Idx) : k1_pay5 x i = x i := by
  unfold k1_pay5
  rw [shapeCast_self]

/-- The scores of a chunk: query row against key row. -/
theorem pay7_apply (q : FVec Ideal S512x1024 .bf16) (kb : FVec Ideal S1024x1024 .bf16) (r : Fin 512) (c : Fin 1024) :
    k1_pay7 q kb (ix2 r c) = ∑ d : Fin 1024, q (ix2 r d) * kb (ix2 c d) := by
  unfold k1_pay7
  rw [shapeCast_self]
  exact DotNT.matmul_abT_zero_apply _ rfl none q kb r c

/-- The new running maximum of row `r`. -/
theorem pay8_apply (q : FVec Ideal S512x1024 .bf16) (kb : FVec Ideal S1024x1024 .bf16) (m : FVec Ideal S512x1 .f32) (r : Fin 512) (z : Fin 1) :
    k1_pay8 q kb m (ix2 r z)
      = max (m (ix2 r z)) ((Finset.univ : Finset (Fin 1024)).fold max (⊥ : EReal) (fun c => k1_pay7 q kb (ix2 r c))) := by
  unfold k1_pay8
  refine (maximumf_apply _ _ _).trans ?_
  refine congrArg (max (m (ix2 r z))) ?_
  refine (shapeCast_a_a1_apply _ _ r z).trans ?_
  refine (Ideal.multiReduction_maximumf_single _ _ _ _ _ _).trans ?_
  rw [Ideal.ofBits_def, ofBits_negInf_f32]
  refine congrArg (fun f => (Finset.univ : Finset (Fin 1024)).fold max (⊥ : EReal) f) ?_
  funext c
  exact congrArg (k1_pay7 q kb) (lift_row _ r c)

/-- The rescaling factor of row `r`. -/
theorem pay9_apply (q : FVec Ideal S512x1024 .bf16) (kb : FVec Ideal S1024x1024 .bf16) (m : FVec Ideal S512x1 .f32) (r : Fin 512) (z : Fin 1) :
    k1_pay9 q kb m (ix2 r z) = Ideal.exp (m (ix2 r z) - k1_pay8 q kb m (ix2 r z)) := by
  unfold k1_pay9
  rfl

/-- The weights of the chunk. -/
theorem pay10_apply (q : FVec Ideal S512x1024 .bf16) (kb : FVec Ideal S1024x1024 .bf16) (m : FVec Ideal S512x1 .f32) (r : Fin 512) (c : Fin 1024) :
    k1_pay10 q kb m (ix2 r c) = Ideal.exp (k1_pay7 q kb (ix2 r c) - k1_pay8 q kb m (ix2 r (0 : Fin 1))) := by
  unfold k1_pay10
  show Ideal.exp (k1_pay7 q kb (ix2 r c) - broadcastTo S512x1024 (k1_pay8 q kb m) _ (ix2 r c)) = _
  rw [broadcastTo_a1_ab_apply]

/-- The new denominator of row `r`. -/
theorem pay11_apply (q : FVec Ideal S512x1024 .bf16) (kb : FVec Ideal S1024x1024 .bf16) (m l : FVec Ideal S512x1 .f32) (r : Fin 512) (z : Fin 1) :
    k1_pay11 q kb m l (ix2 r z)
      = k1_pay9 q kb m (ix2 r z) * l (ix2 r z) + ∑ c : Fin 1024, k1_pay10 q kb m (ix2 r c) := by
  unfold k1_pay11
  rw [shapeCast_self]
  refine (addf_apply _ _ _).trans ?_
  refine congrArg (k1_pay9 q kb m (ix2 r z) * l (ix2 r z) + ·) ?_
  refine (shapeCast_a_a1_apply _ _ r z).trans ?_
  refine (Ideal.multiReduction_add_single _ _ _ _ _ _).trans ?_
  refine Finset.sum_congr rfl fun c _ => ?_
  exact congrArg (k1_pay10 q kb m) (lift_row _ r c)

/-- The new numerator at `(r, e)`. -/
theorem pay12_apply (q : FVec Ideal S512x1024 .bf16) (kb vb : FVec Ideal S1024x1024 .bf16) (m : FVec Ideal S512x1 .f32)
    (acc : FVec Ideal S512x1024 .f32) (r : Fin 512) (e : Fin 1024) :
    k1_pay12 q kb vb m acc (ix2 r e)
      = k1_pay9 q kb m (ix2 r (0 : Fin 1)) * acc (ix2 r e) + ∑ c : Fin 1024, k1_pay10 q kb m (ix2 r c) * vb (ix2 c e) := by
  unfold k1_pay12
  rw [shapeCast_self, shapeCast_self]
  refine (addf_apply _ _ _).trans ?_
  refine congr (congrArg HAdd.hAdd ?_) ?_
  · refine (mulf_apply _ _ _).trans ?_
    rw [broadcastTo_a1_ab_apply]
  · exact Cert.LibPlainDot.matmul_zero_apply _ rfl none _ vb r e

/-- The output: numerator times the reciprocal of the denominator. -/
theorem pay6_apply (acc : FVec Ideal S512x1024 .f32) (l : FVec Ideal S512x1 .f32) (r : Fin 512) (e : Fin 1024) :
    k1_pay6 acc l (ix2 r e) = acc (ix2 r e) * Ideal.div 1 (l (ix2 r (0 : Fin 1))) := by
  unfold k1_pay6
  refine (mulf_apply _ _ _).trans ?_
  rw [broadcastTo_a1_ab_apply]
  refine congrArg (acc (ix2 r e) * ·) ?_
  refine (divf_apply _ _ _).trans ?_
  rw [broadcast_apply]
  exact congrArg (fun t => Ideal.div t (l (ix2 r (0 : Fin 1)))) ofBits_one_f32'

end Cert.KernelIdeal.AttnPay

end
-- ==== Proof.Spec.lean ====
/-
  The mathematics of softmax attention computed chunk by chunk, on the extended reals.

  For one query row with real scores `sc x` against the key positions `x` and one real value column `v x`, the attention
  output is the softmax-weighted mean `(∑ x, e^(sc x - M) · v x) / (∑ x, e^(sc x - M))`, the same number for every shift `M`
  (`wmean_shift`). The chunked ("online") computation carries a running maximum `m`, a running denominator `l` and a running
  numerator `a` through chunks of `C` positions: with `m'` the maximum of `m` and the chunk's scores, the denominator becomes
  `e^(m - m') · l + ∑ e^(s - m')` and the numerator `e^(m - m') · a + ∑ e^(s - m') · v`, starting from `m = -∞, l = 0, a = 0`;
  the result is `a · (1 / l)`. After `j` chunks `l` and `a` are the denominator and numerator over the first `C · j` positions
  at the shift `m` (because `e^(m - m') · e^(s - m) = e^(s - m')`), so the result is the weighted mean (`rowOut_eq`).
-/
import Idealize.ShloMosaic.PureOps.Ideal

noncomputable section

namespace Cert.FlashSpec

open Idealize.ShloMosaic

/-- The softmax denominator over the first `n` positions, at the shift `M`. -/
def den (sc : ℕ → ℝ) (M : ℝ) (n : ℕ) : ℝ := ∑ x ∈ Finset.range n, Real.exp (sc x - M)

/-- The softmax numerator against the value column `v` over the first `n` positions, at the shift `M`. -/
def num (sc v : ℕ → ℝ) (M : ℝ) (n : ℕ) : ℝ := ∑ x ∈ Finset.range n, Real.exp (sc x - M) * v x

/-- The softmax-weighted mean of `v` under the scores `sc` over the first `n` positions. -/
def wmean (sc v : ℕ → ℝ) (M : ℝ) (n : ℕ) : ℝ := num sc v M n * (1 / den sc M n)

/-- Changing the shift multiplies the numerator by the constant `e^(M' - M)`. -/
private theorem num_shift (sc v : ℕ → ℝ) (M M' : ℝ) (n : ℕ) :
    num sc v M n = Real.exp (M' - M) * num sc v M' n := by
  unfold num
  rw [Finset.mul_sum]
  refine Finset.sum_congr rfl (fun x _ => ?_)
  rw [← mul_assoc, ← Real.exp_add]
  congr 2
  ring

/-- Changing the shift multiplies the denominator by the same constant `e^(M' - M)`. -/
private theorem den_shift (sc : ℕ → ℝ) (M M' : ℝ) (n : ℕ) :
    den sc M n = Real.exp (M' - M) * den sc M' n := by
  unfold den
  rw [Finset.mul_sum]
  refine Finset.sum_congr rfl (fun x _ => ?_)
  rw [← Real.exp_add]
  congr 1
  ring

/-- The weighted mean does not depend on the shift. -/
theorem wmean_shift (sc v : ℕ → ℝ) (M M' : ℝ) (n : ℕ) : wmean sc v M n = wmean sc v M' n := by
  unfold wmean
  rw [num_shift sc v M M' n, den_shift sc M M' n]
  have h : Real.exp (M' - M) ≠ 0 := Real.exp_ne_zero _
  by_cases hd : den sc M' n = 0
  · rw [hd]; simp
  · field_simp

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the maximum of two reals is the maximum of the coercions. -/
private theorem coe_max' (a b : ℝ) : ((max a b : ℝ) : EReal) = max (a : EReal) (b : EReal) :=
  EReal.coe_strictMono.monotone.map_max

/-- The maximum of finitely many reals (possibly none), taken from `-∞` or from a real, is `-∞` or a real. -/
private theorem fold_max_bot_or_real {ι : Type*} [DecidableEq ι] (s : Finset ι) (f : ι → ℝ) (init : EReal)
    (hinit : init = ⊥ ∨ ∃ r : ℝ, init = (r : EReal)) :
    s.fold max init (fun k => (f k : EReal)) = ⊥
      ∨ ∃ μ : ℝ, s.fold max init (fun k => (f k : EReal)) = (μ : EReal) := by
  induction s using Finset.induction_on with
  | empty => simpa using hinit
  | insert a s ha ih =>
    right
    rw [Finset.fold_insert ha]
    rcases ih with h | ⟨μ, h⟩
    · exact ⟨f a, by rw [h, max_eq_left bot_le]⟩
    · exact ⟨max (f a) μ, by rw [h, coe_max']⟩

/-- The maximum of finitely many reals (at least one), taken from `-∞` or from a real, is a real. -/
theorem fold_max_real (n : ℕ) (hn : 0 < n) (f : Fin n → ℝ) (init : EReal) (hinit : init = ⊥ ∨ ∃ r : ℝ, init = (r : EReal)) :
    ∃ μ : ℝ, (Finset.univ : Finset (Fin n)).fold max init (fun k => (f k : EReal)) = (μ : EReal) := by
  have ha : (⟨0, hn⟩ : Fin n) ∈ (Finset.univ : Finset (Fin n)) := Finset.mem_univ _
  rw [← Finset.insert_erase ha, Finset.fold_insert (Finset.notMem_erase _ _)]
  rcases fold_max_bot_or_real (Finset.univ.erase (⟨0, hn⟩ : Fin n)) f init hinit with h | ⟨μ, h⟩
  · exact ⟨f ⟨0, hn⟩, by rw [h, max_eq_left bot_le]⟩
  · exact ⟨max (f ⟨0, hn⟩) μ, by rw [h, coe_max']⟩

/-- One chunk of the online recurrence: the state `(m, l, a)` after chunk `j` of `C` positions. -/
def rowStep (C : ℕ) (s w : ℕ → EReal) (j : ℕ) (st : EReal × EReal × EReal) : EReal × EReal × EReal :=
  let m' := max st.1 ((Finset.univ : Finset (Fin C)).fold max (⊥ : EReal) (fun c => s (C * j + c.val)))
  (m', Ideal.exp (st.1 - m') * st.2.1 + ∑ c : Fin C, Ideal.exp (s (C * j + c.val) - m'),
    Ideal.exp (st.1 - m') * st.2.2 + ∑ c : Fin C, Ideal.exp (s (C * j + c.val) - m') * w (C * j + c.val))

/-- The state after `j` chunks, from `(-∞, 0, 0)`. -/
def rowState (C : ℕ) (s w : ℕ → EReal) : ℕ → EReal × EReal × EReal
  | 0 => (⊥, 0, 0)
  | j + 1 => rowStep C s w j (rowState C s w j)

/-- The online computation's result after `J` chunks: numerator times the reciprocal of the denominator. -/
def rowOut (C J : ℕ) (s w : ℕ → EReal) : EReal := (rowState C s w J).2.2 * Ideal.div 1 (rowState C s w J).2.1

/-- The exponential of a difference of two reals, on the extended reals, is the real exponential. -/
private theorem exp_sub_coe (a b : ℝ) :
    Ideal.exp ((a : EReal) - (b : EReal)) = ((Real.exp (a - b) : ℝ) : EReal) := by
  rw [← EReal.coe_sub, Ideal.exp_coe]

/-- Over a nonempty range the denominator is positive. -/
private theorem den_pos (sc : ℕ → ℝ) (M : ℝ) (n : ℕ) (hn : 0 < n) : 0 < den sc M n := by
  unfold den
  exact Finset.sum_pos (fun _ _ => Real.exp_pos _) (Finset.nonempty_range_iff.mpr hn.ne')

/-- The denominator over `N + C` positions at the shift `r'`: the denominator over the first `N` at the shift `r`,
    rescaled by `e^(r - r')`, plus the next chunk of `C` terms. -/
private theorem den_chunk (sc : ℕ → ℝ) (r r' : ℝ) (N C : ℕ) :
    den sc r' (N + C) = Real.exp (r - r') * den sc r N + ∑ c : Fin C, Real.exp (sc (N + c.val) - r') := by
  rw [← den_shift sc r' r N]
  unfold den
  rw [Finset.sum_range_add]
  congr 1
  exact Finset.sum_range (fun x => Real.exp (sc (N + x) - r'))

/-- The numerator over `N + C` positions at the shift `r'`, in the same way. -/
private theorem num_chunk (sc v : ℕ → ℝ) (r r' : ℝ) (N C : ℕ) :
    num sc v r' (N + C)
      = Real.exp (r - r') * num sc v r N + ∑ c : Fin C, Real.exp (sc (N + c.val) - r') * v (N + c.val) := by
  rw [← num_shift sc v r' r N]
  unfold num
  rw [Finset.sum_range_add]
  congr 1
  exact Finset.sum_range (fun x => Real.exp (sc (N + x) - r') * v (N + x))

/-- One chunk from a real state: if `l` and `a` are the denominator and numerator over `C · j` positions at the real
    shift `r`, the next state is the same over `C · (j + 1)` positions at the new real maximum. -/
private theorem rowStep_real (C : ℕ) (hC : 0 < C) (sc v : ℕ → ℝ) (j : ℕ) (r : ℝ) :
    ∃ r' : ℝ, rowStep C (fun x => (sc x : EReal)) (fun x => (v x : EReal)) j
        ((r : EReal), ((den sc r (C * j) : ℝ) : EReal), ((num sc v r (C * j) : ℝ) : EReal))
      = ((r' : EReal), ((den sc r' (C * (j + 1)) : ℝ) : EReal), ((num sc v r' (C * (j + 1)) : ℝ) : EReal)) := by
  obtain ⟨μ, hμ⟩ := fold_max_real C hC (fun c => sc (C * j + c.val)) ⊥ (Or.inl rfl)
  refine ⟨max r μ, ?_⟩
  unfold rowStep
  dsimp only
  rw [hμ, ← coe_max', Nat.mul_succ, den_chunk sc r (max r μ) (C * j) C, num_chunk sc v r (max r μ) (C * j) C]
  simp only [exp_sub_coe, ← EReal.coe_mul, ← coe_sum, ← EReal.coe_add]

/-- The first chunk, from the state `(-∞, 0, 0)`. -/
private theorem rowStep_bot (C : ℕ) (hC : 0 < C) (sc v : ℕ → ℝ) :
    ∃ r' : ℝ, rowStep C (fun x => (sc x : EReal)) (fun x => (v x : EReal)) 0 ((⊥ : EReal), (0 : EReal), (0 : EReal))
      = ((r' : EReal), ((den sc r' (C * (0 + 1)) : ℝ) : EReal), ((num sc v r' (C * (0 + 1)) : ℝ) : EReal)) := by
  obtain ⟨μ, hμ⟩ := fold_max_real C hC (fun c => sc (C * 0 + c.val)) ⊥ (Or.inl rfl)
  refine ⟨μ, ?_⟩
  have hd : den sc μ (C * 0) = 0 := by simp [den]
  have hn : num sc v μ (C * 0) = 0 := by simp [num]
  unfold rowStep
  dsimp only
  rw [hμ, max_eq_right bot_le, mul_zero, mul_zero, zero_add, zero_add, Nat.mul_succ,
    den_chunk sc μ μ (C * 0) C, num_chunk sc v μ μ (C * 0) C, hd, hn, mul_zero, mul_zero, zero_add, zero_add]
  simp only [exp_sub_coe, ← EReal.coe_mul, ← coe_sum]

/-- After at least one chunk the running maximum is a real `r`, and the running denominator and numerator are those
    over the positions seen so far at the shift `r`. -/
private theorem rowState_real (C : ℕ) (hC : 0 < C) (sc v : ℕ → ℝ) (j : ℕ) :
    ∃ r : ℝ, rowState C (fun x => (sc x : EReal)) (fun x => (v x : EReal)) (j + 1)
      = ((r : EReal), ((den sc r (C * (j + 1)) : ℝ) : EReal), ((num sc v r (C * (j + 1)) : ℝ) : EReal)) := by
  induction j with
  | zero => exact rowStep_bot C hC sc v
  | succ j ih =>
    obtain ⟨r, hr⟩ := ih
    obtain ⟨r', hr'⟩ := rowStep_real C hC sc v (j + 1) r
    refine ⟨r', ?_⟩
    rw [← hr', ← hr]
    rfl

/-- On real scores and values the online computation over `J ≥ 1` chunks of `C ≥ 1` positions is the weighted mean over the
    `C · J` positions. -/
theorem rowOut_eq (C J : ℕ) (hC : 0 < C) (hJ : 0 < J) (sc v : ℕ → ℝ) (M : ℝ) :
    rowOut C J (fun x => (sc x : EReal)) (fun x => (v x : EReal)) = ((wmean sc v M (C * J) : ℝ) : EReal) := by
  obtain ⟨j, rfl⟩ : ∃ j, J = j + 1 := ⟨J - 1, by omega⟩
  obtain ⟨r, hr⟩ := rowState_real C hC sc v j
  have hpos : 0 < den sc r (C * (j + 1)) := den_pos sc r (C * (j + 1)) (Nat.mul_pos hC hJ)
  unfold rowOut
  rw [hr]
  dsimp only
  rw [Ideal.div_coe hpos.ne' 1, one_mul, ← EReal.coe_mul]
  exact congrArg _ (wmean_shift sc v r M (C * (j + 1)))

/-- The one-shot softmax row against a value column, as the reference spells it (each weight divided by the denominator,
    which is a sum started from zero), at any real shift `mx`: the weighted mean. -/
theorem softmax_row (n : ℕ) (hn : 0 < n) (sc v : ℕ → ℝ) (mx : EReal) (hmx : ∃ M : ℝ, mx = (M : EReal)) (M' : ℝ) :
    (∑ k : Fin n, Ideal.div (Ideal.exp ((sc k.val : EReal) - mx)) ((0 : EReal) + ∑ k' : Fin n, Ideal.exp ((sc k'.val : EReal) - mx)) * (v k.val : EReal))
      = ((wmean sc v M' n : ℝ) : EReal) := by
  obtain ⟨M, rfl⟩ := hmx
  have hpos : 0 < den sc M n := den_pos sc M n hn
  have hden : (0 : EReal) + ∑ k' : Fin n, Ideal.exp ((sc k'.val : EReal) - (M : EReal)) = ((den sc M n : ℝ) : EReal) := by
    rw [zero_add]
    simp only [exp_sub_coe, ← coe_sum]
    unfold den
    exact congrArg _ (Finset.sum_range (fun x => Real.exp (sc x - M))).symm
  rw [hden]
  simp only [Ideal.div_coe hpos.ne', exp_sub_coe, ← EReal.coe_mul, ← coe_sum]
  refine congrArg _ ?_
  rw [← wmean_shift sc v M M' n]
  unfold wmean num
  rw [Finset.sum_range (fun x => Real.exp (sc x - M) * v x), Finset.sum_mul]
  refine Finset.sum_congr rfl (fun k _ => ?_)
  ring

end Cert.FlashSpec

end
-- ==== Proof.AttnRow.lean ====
/-
  The attention kernel's state, row by row, on the extended reals.

  Fix a query block `q` (512 rows), the resident keys `X2` and values `X3` (4096 rows each), a row `r` of the block and an
  output column `e`. Row `r`'s scores against key position `x` are `∑ d, q[r, d] · X2[x, d]`, and column `e` of the values is
  `X3[x, e]`. Entry by entry the scratch contents after `k` trips — maximum and denominator at `(r, 0)`, numerator at `(r, e)` —
  are the online recurrence `rowState` over chunks of 1024 positions on those scores and values, and the stored output at
  `(r, e)` is its result `rowOut` after four chunks.
-/
import proofs.«415637_j66340064854151_3_alg».proof.Proof.AttnRun
import proofs.«415637_j66340064854151_3_alg».proof.Proof.AttnPay
import proofs.«415637_j66340064854151_3_alg».proof.Proof.Spec

set_option maxRecDepth 16384

noncomputable section

namespace Cert.KernelIdeal.AttnRow

open Cert.KernelIdeal Cert.KernelIdeal.Gen Cert.KernelIdeal.AttnRun Cert.KernelIdeal.AttnPay Idealize.ShloMosaic Idealize.ShloMosaic.ValueIdx
open Cert.FlashSpec

/-- Row `r`'s scores by key position (zero past the last position). -/
def sRow (q : FVec Ideal S512x1024 .bf16) (X2 : FVec Ideal S4096x1024 .bf16) (r : Fin 512) : ℕ → EReal := fun x =>
  if h : x < 4096 then ∑ d : Fin 1024, q (ix2 r d) * X2 (ix2 (⟨x, h⟩ : Fin 4096) d) else 0

/-- Column `e` of the values by key position (zero past the last position). -/
def vCol (X3 : FVec Ideal S4096x1024 .bf16) (e : Fin 1024) : ℕ → EReal := fun x =>
  if h : x < 4096 then X3 (ix2 (⟨x, h⟩ : Fin 4096) e) else 0

/-- The loop runs four trips. -/
theorem trips_eq : k1_t1_loop.trips = 4 := by
  decide

/-- Chunk `k` of a resident array at `(c, d)` is the array at row `1024 k + c`. -/
theorem chunk_apply (X : FVec Ideal S4096x1024 .bf16) (k : Fin k1_t1_loop.trips) (c : Fin 1024) (d : Fin 1024)
    (h : 1024 * k.val + c.val < 4096) :
    chunk (F := Ideal) X k (ix2 c d) = X (ix2 (⟨1024 * k.val + c.val, h⟩ : Fin 4096) d) := by
  unfold chunk
  show X ((Rect.unit (s := S4096x1024) (k1_off1 k) S1024x1024.size (k1_off1_inb k)).idx (ix2 c d)) = _
  refine congrArg X ?_
  have ho := Gen.k1_off1_eq k
  funext a; apply Fin.ext
  match a with
  | ⟨0, _⟩ =>
    show k1_off1 k 0 + 1 * c.val = 1024 * k.val + c.val
    rw [ho, Nat.one_mul]; rfl
  | ⟨1, _⟩ =>
    show k1_off1 k 1 + 1 * d.val = d.val
    rw [ho, Nat.one_mul]
    show 0 + d.val = d.val
    rw [Nat.zero_add]

/-- A trip index is below four, so its chunk's rows are rows of the resident array. -/
private theorem row_lt (k : ℕ) (hk : k < k1_t1_loop.trips) (c : Fin 1024) : 1024 * k + c.val < 4096 := by
  rw [trips_eq] at hk
  have := c.isLt
  omega

/-- The scores of chunk `k` at row `r` are the row's scores at the positions `1024 k + c`. -/
private theorem score_chunk (q : FVec Ideal S512x1024 .bf16) (X2 : FVec Ideal S4096x1024 .bf16) (r : Fin 512)
    (k : ℕ) (hk : k < k1_t1_loop.trips) (c : Fin 1024) :
    k1_pay7 q (chunk (F := Ideal) X2 ⟨k, hk⟩) (ix2 r c) = sRow q X2 r (1024 * k + c.val) := by
  have h := row_lt k hk c
  rw [pay7_apply]
  unfold sRow
  rw [dif_pos h]
  refine Finset.sum_congr rfl fun d _ => ?_
  rw [chunk_apply X2 ⟨k, hk⟩ c d h]

/-- Chunk `k` of the values at `(c, e)` is column `e` at the position `1024 k + c`. -/
private theorem val_chunk (X3 : FVec Ideal S4096x1024 .bf16) (e : Fin 1024)
    (k : ℕ) (hk : k < k1_t1_loop.trips) (c : Fin 1024) :
    chunk (F := Ideal) X3 ⟨k, hk⟩ (ix2 c e) = vCol X3 e (1024 * k + c.val) := by
  have h := row_lt k hk c
  unfold vCol
  rw [dif_pos h]
  exact chunk_apply X3 ⟨k, hk⟩ c e h

/-- After `k ≤ 4` trips the scratch contents at row `r` (numerator at column `e`) are the online recurrence's state. -/
theorem st_row (q : FVec Ideal S512x1024 .bf16) (X2 X3 : FVec Ideal S4096x1024 .bf16) (r : Fin 512) (e : Fin 1024) :
    ∀ k : ℕ, k ≤ 4 →
      (st (F := Ideal) q X2 X3 k).1 (ix2 r (0 : Fin 1)) = (rowState 1024 (sRow q X2 r) (vCol X3 e) k).1
      ∧ (st (F := Ideal) q X2 X3 k).2.1 (ix2 r (0 : Fin 1)) = (rowState 1024 (sRow q X2 r) (vCol X3 e) k).2.1
      ∧ (st (F := Ideal) q X2 X3 k).2.2 (ix2 r e) = (rowState 1024 (sRow q X2 r) (vCol X3 e) k).2.2 := by
  intro k
  induction k with
  | zero =>
    intro _
    exact ⟨pay1_apply (ix2 r (0 : Fin 1)), pay2_apply (ix2 r (0 : Fin 1)), pay3_apply (ix2 r e)⟩
  | succ k ih =>
    intro hk
    have hk' : k < k1_t1_loop.trips := by rw [trips_eq]; omega
    obtain ⟨ih1, ih2, ih3⟩ := ih (by omega)
    have es : st (F := Ideal) q X2 X3 (k + 1)
        = (k1_pay5 (k1_pay8 q (chunk X2 ⟨k, hk'⟩) (st q X2 X3 k).1),
            k1_pay11 q (chunk X2 ⟨k, hk'⟩) (st q X2 X3 k).1 (st q X2 X3 k).2.1,
            k1_pay12 q (chunk X2 ⟨k, hk'⟩) (chunk X3 ⟨k, hk'⟩) (st q X2 X3 k).1 (st q X2 X3 k).2.2) := by
      rw [st]; exact dif_pos hk'
    -- the new maximum, the rescaling factor and the weights of this trip, in the recurrence's terms
    have hmax : k1_pay8 q (chunk (F := Ideal) X2 ⟨k, hk'⟩) (st (F := Ideal) q X2 X3 k).1 (ix2 r (0 : Fin 1))
        = max (rowState 1024 (sRow q X2 r) (vCol X3 e) k).1
            ((Finset.univ : Finset (Fin 1024)).fold max (⊥ : EReal) (fun c => sRow q X2 r (1024 * k + c.val))) := by
      rw [pay8_apply, ih1]
      refine congrArg (max _) ?_
      refine congrArg (fun f => (Finset.univ : Finset (Fin 1024)).fold max (⊥ : EReal) f) ?_
      funext c
      exact score_chunk q X2 r k hk' c
    have hresc : k1_pay9 q (chunk (F := Ideal) X2 ⟨k, hk'⟩) (st (F := Ideal) q X2 X3 k).1 (ix2 r (0 : Fin 1))
        = Ideal.exp ((rowState 1024 (sRow q X2 r) (vCol X3 e) k).1
            - max (rowState 1024 (sRow q X2 r) (vCol X3 e) k).1
                ((Finset.univ : Finset (Fin 1024)).fold max (⊥ : EReal) (fun c => sRow q X2 r (1024 * k + c.val)))) := by
      rw [pay9_apply, hmax, ih1]
    have hw : ∀ c : Fin 1024, k1_pay10 q (chunk (F := Ideal) X2 ⟨k, hk'⟩) (st (F := Ideal) q X2 X3 k).1 (ix2 r c)
        = Ideal.exp (sRow q X2 r (1024 * k + c.val)
            - max (rowState 1024 (sRow q X2 r) (vCol X3 e) k).1
                ((Finset.univ : Finset (Fin 1024)).fold max (⊥ : EReal) (fun c => sRow q X2 r (1024 * k + c.val)))) := by
      intro c
      rw [pay10_apply, hmax, score_chunk q X2 r k hk' c]
    refine ⟨?_, ?_, ?_⟩
    · rw [congrArg (fun p => p.1) es]
      dsimp only
      rw [pay5_apply, hmax]
      rfl
    · rw [congrArg (fun p => p.2.1) es]
      dsimp only
      rw [pay11_apply, hresc, ih2, Finset.sum_congr rfl fun c _ => hw c]
      rfl
    · rw [congrArg (fun p => p.2.2) es]
      dsimp only
      rw [pay12_apply, hresc, ih3,
        Finset.sum_congr rfl fun c _ => congr (congrArg HMul.hMul (hw c)) (val_chunk X3 e k hk' c)]
      rfl

/-- The stored output at `(r, e)` is the online computation's result after four chunks. -/
theorem out_row (q : FVec Ideal S512x1024 .bf16) (X2 X3 : FVec Ideal S4096x1024 .bf16) (r : Fin 512) (e : Fin 1024) :
    k1_pay6 (F := Ideal) (st (F := Ideal) q X2 X3 4).2.2 (st (F := Ideal) q X2 X3 4).2.1 (ix2 r e)
      = rowOut 1024 4 (sRow q X2 r) (vCol X3 e) := by
  obtain ⟨_, h2, h3⟩ := st_row q X2 X3 r e 4 (le_refl 4)
  rw [pay6_apply, h2, h3]
  rfl

end Cert.KernelIdeal.AttnRow

end
-- ==== Proof.AttnValue.lean ====
/-
  The attention kernel's result array.

  At grid point `t` the body leaves in the output's staging buffer the final payload (numerator times reciprocal denominator)
  of the scratch state after the loop's trips, computed from query block `t` (rows `512 t … 512 t + 511`) and the whole key
  and value arrays; the eight blocks tile the 4096 rows. So the array the kernel leaves holds at `(q, e)` the online
  computation over four chunks of 1024 key positions of row `q`'s scores `∑ d, Q[q, d] · K[x, d]` against column `e` of `V`.
-/
import proofs.«415637_j66340064854151_3_alg».proof.Proof.AttnRow
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.AttnRun Cert.KernelIdeal.AttnRow
open Idealize.ShloMosaic Idealize.ShloMosaic.TcCoe Idealize.ShloMosaic.Tactic Idealize.ShloMosaic.ValueIdx Idealize.SL.Sem
open Cert.FlashSpec

section Block

variable {F : FTy → Type} [FloatOps F]
variable (c : Dev nD) (i : grid1.Coords) (arg1 : Memref sig .tc .vmem S512x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1024 .f32) (harg7 : arg7.IsWhole)
variable (x0 : Vec F S512x1024 .bf16) (x1 x2 : Vec F S4096x1024 .bf16)

/-- What the body leaves in the output's staging buffer: the final payload of the scratch state after the trips. -/
theorem out_block :
    out1_A_3 c i arg1 harg1 arg2 harg2 arg3 harg3 arg4 harg4 arg5 harg5 arg6 harg6 arg7 harg7 x0 x1 x2
      = k1_pay6 (st (k1_pay4 x0) x1 x2 k1_t1_loop.trips).2.2 (st (k1_pay4 x0) x1 x2 k1_t1_loop.trips).2.1 := by
  unfold out1_A_3
  rw [View.read_writes_eq_canon _ _ _ (cover1_A_3 c i arg1 harg1 arg2 harg2 arg3 harg3 arg4 harg4 arg5 harg5 arg6 harg6 arg7 harg7 x0 x1 x2)]
  unfold kernelRun1_A
  dsimp only
  sl_unfold_run_names
  rw [View.canon_unit_zero hz, View.writes_append, View.writes_append]
  have hx0 : View.readAt (Elt F) arg1.view R2.toLoadRect (harg1.unread x0) = x0 := by
    rw [View.readAt_eq_ld, harg1.read_unread, View.ld_unit_zero hz]
  rw [hx0]
  obtain ⟨-, h6, h7⟩ := scratch_after c i arg1 harg1 arg2 harg2 arg3 harg3 arg4 harg4 arg5 harg5 arg6 harg6 arg7 harg7 x1 x2 x0 k1_t1_loop.trips le_rfl
  exact congrArg₂ k1_pay6 h7 h6

end Block

variable (V : (c : Dev nD) → (b : Ref sig .tc) → Buf (Elt Ideal) ((c : Thread nD τ).loc b))

/-- The three arrays the attention kernel reads, as it finds them, and the array it leaves, at their literal types. -/
abbrev qIn (c : Dev nD) : FVec Ideal S4096x1024 .bf16 := V c main_v0_0
abbrev kIn (c : Dev nD) : FVec Ideal S4096x1024 .bf16 := V c main_v0_1
abbrev vIn (c : Dev nD) : FVec Ideal S4096x1024 .bf16 := V c main_v0_2
abbrev oOut (c : Dev nD) : FVec Ideal S4096x1024 .f32 := (dat1 (F := Ideal) V c).arrAt 3 cfg1.N

/-! ## The whole-array function -/

/-- The online computation entry by entry: at `(q, e)`, over row `q`'s scores against every key position and column `e`
    of the values. -/
def O (c : Dev nD) : FVec Ideal S4096x1024 .f32 := fun i =>
  rowOut 1024 4
    (fun x => if h : x < 4096 then ∑ d : Fin 1024, qIn V c (ix2 (i 0) d) * kIn V c (ix2 (⟨x, h⟩ : Fin 4096) d) else 0)
    (fun x => if h : x < 4096 then vIn V c (ix2 (⟨x, h⟩ : Fin 4096) (i 1)) else 0)

/-! ## The index maps over the grid -/

/-- Decided over the eight points: the query window and the output window sit at block `(t, 0)`, the key and value windows
    at block `(0, 0)`. -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0) :=
  (by decide +kernel : ∀ t : Fin grid1.N, _)

/-! ## The input blocks as rows of the arrays -/

/-- Point `t`'s query block is rows `512 t … 512 t + 511` of the query array. -/
theorem q_blk (c : Dev nD) (t : Fin cfg1.N) (r : Fin 512) (d : Fin 1024) (k : Fin 4096) (hk : k.val = t.val * 512 + r.val) :
    (iblk1 (F := Ideal) V c 0 t : Vec Ideal S512x1024 .bf16) (ix2 r d) = qIn V c (ix2 k d) := by
  obtain ⟨⟨e0, e1⟩, -⟩ := idx_facts t
  unfold iblk1
  rw [View.read_apply]
  show V c main_v0_0 _ = V c main_v0_0 _
  congr 1
  funext ax; apply Fin.ext
  match ax with
  | ⟨0, _⟩ => show win1_0.index t (0 : Fin 2) * 512 + 1 * r.val = k.val; rw [e0, hk]; omega
  | ⟨1, _⟩ => show win1_0.index t (1 : Fin 2) * 1024 + 1 * d.val = d.val; rw [e1]; omega

/-- Every point's key block is the whole key array, -/
theorem k_blk (c : Dev nD) (t : Fin cfg1.N) (x : Fin 4096) (d : Fin 1024) :
    (iblk1 (F := Ideal) V c 1 t : Vec Ideal S4096x1024 .bf16) (ix2 x d) = kIn V c (ix2 x d) := by
  obtain ⟨-, ⟨e0, e1⟩, -⟩ := idx_facts t
  unfold iblk1
  rw [View.read_apply]
  show V c main_v0_1 _ = V c main_v0_1 _
  congr 1
  funext ax; apply Fin.ext
  match ax with
  | ⟨0, _⟩ => show win1_1.index t (0 : Fin 2) * 4096 + 1 * x.val = x.val; rw [e0]; omega
  | ⟨1, _⟩ => show win1_1.index t (1 : Fin 2) * 1024 + 1 * d.val = d.val; rw [e1]; omega

/-- and its value block the whole value array. -/
theorem v_blk (c : Dev nD) (t : Fin cfg1.N) (x : Fin 4096) (e : Fin 1024) :
    (iblk1 (F := Ideal) V c 2 t : Vec Ideal S4096x1024 .bf16) (ix2 x e) = vIn V c (ix2 x e) := by
  obtain ⟨-, -, ⟨e0, e1⟩, -⟩ := idx_facts t
  unfold iblk1
  rw [View.read_apply]
  show V c main_v0_2 _ = V c main_v0_2 _
  congr 1
  funext ax; apply Fin.ext
  match ax with
  | ⟨0, _⟩ => show win1_2.index t (0 : Fin 2) * 4096 + 1 * x.val = x.val; rw [e0]; omega
  | ⟨1, _⟩ => show win1_2.index t (1 : Fin 2) * 1024 + 1 * e.val = e.val; rw [e1]; omega

/-- Row `r` of point `t`'s block scores against the keys as row `512 t + r` of the query array does. -/
theorem sRow_blk (c : Dev nD) (t : Fin cfg1.N) (r : Fin 512) (k : Fin 4096) (hk : k.val = t.val * 512 + r.val) :
    sRow (k1_pay4 (iblk1 (F := Ideal) V c 0 t)) (iblk1 (F := Ideal) V c 1 t) r
      = fun x => if h : x < 4096 then ∑ d : Fin 1024, qIn V c (ix2 k d) * kIn V c (ix2 (⟨x, h⟩ : Fin 4096) d) else 0 := by
  funext x
  unfold sRow
  by_cases h : x < 4096
  · rw [dif_pos h, dif_pos h]
    refine Finset.sum_congr rfl fun d _ => ?_
    exact congrArg₂ (· * ·)
      ((AttnPay.pay4_apply (iblk1 (F := Ideal) V c 0 t) (ix2 r d)).trans (q_blk V c t r d k hk))
      (k_blk V c t ⟨x, h⟩ d)
  · rw [dif_neg h, dif_neg h]

/-- Column `e` of every point's value block is column `e` of the value array. -/
theorem vCol_blk (c : Dev nD) (t : Fin cfg1.N) (e : Fin 1024) :
    vCol (iblk1 (F := Ideal) V c 2 t) e
      = fun x => if h : x < 4096 then vIn V c (ix2 (⟨x, h⟩ : Fin 4096) e) else 0 := by
  funext x
  unfold vCol
  by_cases h : x < 4096
  · rw [dif_pos h, dif_pos h]
    exact v_blk V c t ⟨x, h⟩ e
  · rw [dif_neg h, dif_neg h]

/-! ## What each point writes back -/

/-- Point `t` writes back block `t` of the online computation on the arrays. -/
theorem flushed_o (c : Dev nD) (t : Fin cfg1.N) :
    (dat1 (F := Ideal) V c).flushed 3 t = ((cfg1.win 3).blk t).view.read (Elt Ideal) (O V c) := by
  show (cfg1.win 3).cut (grid1.coords t) ((dat1 (F := Ideal) V c).after 3 t) = _
  rw [after1_3]
  unfold outsAt1
  rw [out_block, trips_eq]
  obtain ⟨-, -, -, e0, e1⟩ := idx_facts t
  funext j
  have hj0 : (j 0).val < 512 := (j 0).isLt
  have hj1 : (j 1).val < 1024 := (j 1).isLt
  have hN : t.val < 8 := t.isLt
  have hk : t.val * 512 + (j 0).val < 4096 := by omega
  have hemb : ((cfg1.win 3).blk t).view.emb j = ix2 (⟨t.val * 512 + (j 0).val, hk⟩ : Fin 4096) (⟨(j 1).val, hj1⟩ : Fin 1024) := by
    funext ax; apply Fin.ext
    match ax with
    | ⟨0, _⟩ => show win1_3.index t (0 : Fin 2) * 512 + 1 * (j 0).val = t.val * 512 + (j 0).val; rw [e0]; omega
    | ⟨1, _⟩ => show win1_3.index t (1 : Fin 2) * 1024 + 1 * (j 1).val = (j 1).val; rw [e1]; omega
  refine Eq.trans (b := k1_pay6 (F := Ideal) (st (F := Ideal) (k1_pay4 (iblk1 (F := Ideal) V c 0 t)) (iblk1 (F := Ideal) V c 1 t) (iblk1 (F := Ideal) V c 2 t) 4).2.2 (st (F := Ideal) (k1_pay4 (iblk1 (F := Ideal) V c 0 t)) (iblk1 (F := Ideal) V c 1 t) (iblk1 (F := Ideal) V c 2 t) 4).2.1 (ix2 (⟨(j 0).val, hj0⟩ : Fin 512) (⟨(j 1).val, hj1⟩ : Fin 1024)))
    (congrArg (k1_pay6 (F := Ideal) (st (F := Ideal) (k1_pay4 (iblk1 (F := Ideal) V c 0 t)) (iblk1 (F := Ideal) V c 1 t) (iblk1 (F := Ideal) V c 2 t) 4).2.2 (st (F := Ideal) (k1_pay4 (iblk1 (F := Ideal) V c 0 t)) (iblk1 (F := Ideal) V c 1 t) (iblk1 (F := Ideal) V c 2 t) 4).2.1) (funext fun ax => by match ax with | ⟨0, _⟩ => rfl | ⟨1, _⟩ => rfl)) ?_
  refine (out_row (k1_pay4 (iblk1 (F := Ideal) V c 0 t)) (iblk1 (F := Ideal) V c 1 t) (iblk1 (F := Ideal) V c 2 t) ⟨(j 0).val, hj0⟩ ⟨(j 1).val, hj1⟩).trans ?_
  refine Eq.trans ?_ (congrArg (O V c) hemb).symm
  rw [sRow_blk V c t ⟨(j 0).val, hj0⟩ ⟨t.val * 512 + (j 0).val, hk⟩ rfl, vCol_blk V c t ⟨(j 1).val, hj1⟩]
  rfl

/-! ## The blocks tile the rows -/

/-- Row `q` lies in the block of point `q / 512`, which writes back. -/
theorem cover_o (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨-, -, -, e0, e1⟩ := idx_facts t
  refine ⟨t, flush1_3 t, ?_⟩
  show i ∈ ((View.whole main_v1).slice (win1_3.rect t)).set
  rw [View.set_slice_whole, Rect.mem_set_unit]
  intro a
  match a with
  | ⟨0, _⟩ => show win1_3.index t (0 : Fin 2) * 512 ≤ (i 0).val ∧ (i 0).val < win1_3.index t (0 : Fin 2) * 512 + 512; rw [e0, ht]; omega
  | ⟨1, _⟩ => show win1_3.index t (1 : Fin 2) * 1024 ≤ (i 1).val ∧ (i 1).val < win1_3.index t (1 : Fin 2) * 1024 + 1024; rw [e1]; omega

/-! ## The array the kernel leaves -/

/-- The output ends holding the online computation on the arrays. -/
theorem o_final (c : Dev nD) : oOut V c = O V c :=
  (dat1 (F := Ideal) V c).arrAt_eq_of_cover 3 (O V c) (fun t _ => flushed_o V c t) cover_o

/-- The result array at `(q, e)`: the online computation on row `q`'s scores and column `e` of the values. -/
theorem o_arr (c : Dev nD) (q : Fin 4096) (e : Fin 1024) :
    oOut V c (ix2 q e)
      = rowOut 1024 4
          (fun x => if h : x < 4096 then ∑ d : Fin 1024, qIn V c (ix2 q d) * kIn V c (ix2 (⟨x, h⟩ : Fin 4096) d) else 0)
          (fun x => if h : x < 4096 then vIn V c (ix2 (⟨x, h⟩ : Fin 4096) e) else 0) := by
  rw [o_final]; rfl

end Cert.KernelIdeal.AttnValue

end
-- ==== Proof.Model.lean ====
/-
  The attention layer as a function of real inputs.

  `proj x w` is the linear map `x · wᵀ` (weights stored [out, in]); the score of query `q` against key position `x` is the
  inner product of the projected query and key rows divided by 32 (the square root of the model width 1024); the output at
  `(q, e)` is the softmax-weighted mean over the 4096 key positions of column `e` of the projected values. Scores and values
  are extended by zero past position 4095 so that they are functions of a natural number.
-/
import proofs.«415637_j66340064854151_3_alg».proof.Proof.Spec

noncomputable section

namespace Cert.AttnModel

/-- A real activation array, 4096 rows of width 1024, and a real weight matrix stored [out, in]. -/
abbrev RA := Fin 4096 → Fin 1024 → ℝ
abbrev RW := Fin 1024 → Fin 1024 → ℝ

/-- `x · wᵀ`. -/
def proj (x : RA) (w : RW) : RA := fun r e => ∑ d : Fin 1024, x r d * w e d

/-- The scaled scores of query row `q`, by key position. -/
def scN (xq xk : RA) (wq wk : RW) (q : Fin 4096) : ℕ → ℝ := fun x =>
  if h : x < 4096 then (∑ d : Fin 1024, proj xq wq q d * proj xk wk ⟨x, h⟩ d) / 32 else 0

/-- Column `e` of the projected values, by key position. -/
def vN (xv : RA) (wv : RW) (e : Fin 1024) : ℕ → ℝ := fun x =>
  if h : x < 4096 then proj xv wv ⟨x, h⟩ e else 0

/-- The attention output at `(q, e)`. -/
def out (xq xk xv : RA) (wq wk wv : RW) (q : Fin 4096) (e : Fin 1024) : ℝ :=
  Cert.FlashSpec.wmean (scN xq xk wq wk q) (vN xv wv e) 0 4096

end Cert.AttnModel

end
-- ==== Proof.KernelReal.lean ====
/-
  The kernel's row computation on real inputs.

  The projection kernel leaves `qa = (x_q · w_qᵀ) · (1/32)`, `ka = x_k · w_kᵀ`, `va = x_v · w_vᵀ` (sums over the contracted
  coordinate on the extended reals). When the six inputs are real, these are coercions of reals, row `q`'s scores
  `∑ d, qa[q, d] · ka[x, d]` are the model's scaled scores (the factor 1/32 moves out of the sum over the reals), the value
  column is the model's, and the online computation over four chunks of 1024 positions is the model's output.
-/
import proofs.«415637_j66340064854151_3_alg».proof.Proof.Model
import Idealize.ShloMosaic.PureOps.Ideal.Laws
import Idealize.ShloMosaic.Lib.ValueIdx

noncomputable section

namespace Cert.KernelReal

open Idealize.ShloMosaic Idealize.ShloMosaic.ValueIdx Cert.AttnModel Cert.FlashSpec

/-- The word `0x3D000000` is the real `1/32`. -/
theorem ofBits_inv32 : Ideal.ofBits .f32 0x3D000000#32 = (((1 : ℝ) / 32 : ℝ) : EReal) := by
  simp [Ideal.ofBits, Ideal.ieee, -EReal.coe_mul]; norm_num

/-- On real inputs, the online computation over the projected arrays is the model's output at `(q, e)`. -/
theorem kernel_row
    (a0 a1 a2 : FVec Ideal ⟨2, ![4096, 1024]⟩ .f32) (a3 a4 a5 : FVec Ideal ⟨2, ![1024, 1024]⟩ .f32)
    (qa ka va : FVec Ideal ⟨2, ![4096, 1024]⟩ .bf16)
    (xq xk xv : RA) (wq wk wv : RW)
    (h0 : ∀ r d, a0 (ix2 r d) = (xq r d : EReal)) (h1 : ∀ r d, a1 (ix2 r d) = (xk r d : EReal))
    (h2 : ∀ r d, a2 (ix2 r d) = (xv r d : EReal)) (h3 : ∀ r d, a3 (ix2 r d) = (wq r d : EReal))
    (h4 : ∀ r d, a4 (ix2 r d) = (wk r d : EReal)) (h5 : ∀ r d, a5 (ix2 r d) = (wv r d : EReal))
    (hq : ∀ (r : Fin 4096) (e : Fin 1024), qa (ix2 r e) = (∑ d : Fin 1024, a0 (ix2 r d) * a3 (ix2 e d)) * Ideal.ofBits .f32 0x3D000000#32)
    (hk : ∀ (r : Fin 4096) (e : Fin 1024), ka (ix2 r e) = ∑ d : Fin 1024, a1 (ix2 r d) * a4 (ix2 e d))
    (hv : ∀ (r : Fin 4096) (e : Fin 1024), va (ix2 r e) = ∑ d : Fin 1024, a2 (ix2 r d) * a5 (ix2 e d))
    (q : Fin 4096) (e : Fin 1024) :
    rowOut 1024 4
        (fun x => if h : x < 4096 then ∑ d : Fin 1024, qa (ix2 q d) * ka (ix2 (⟨x, h⟩ : Fin 4096) d) else 0)
        (fun x => if h : x < 4096 then va (ix2 (⟨x, h⟩ : Fin 4096) e) else 0)
      = ((Cert.AttnModel.out xq xk xv wq wk wv q e : ℝ) : EReal) := by
  have hqa : ∀ (r : Fin 4096) (c : Fin 1024), qa (ix2 r c) = ((proj xq wq r c * (1 / 32) : ℝ) : EReal) := by
    intro r c
    rw [hq, ofBits_inv32]
    simp only [h0, h3, ← EReal.coe_mul, ← coe_sum]
    rfl
  have hka : ∀ (r : Fin 4096) (c : Fin 1024), ka (ix2 r c) = ((proj xk wk r c : ℝ) : EReal) := by
    intro r c
    rw [hk]
    simp only [h1, h4, ← EReal.coe_mul, ← coe_sum]
    rfl
  have hva : ∀ (r : Fin 4096) (c : Fin 1024), va (ix2 r c) = ((proj xv wv r c : ℝ) : EReal) := by
    intro r c
    rw [hv]
    simp only [h2, h5, ← EReal.coe_mul, ← coe_sum]
    rfl
  have hs : (fun x => if h : x < 4096 then ∑ d : Fin 1024, qa (ix2 q d) * ka (ix2 (⟨x, h⟩ : Fin 4096) d) else (0 : EReal))
      = fun x => ((scN xq xk wq wk q x : ℝ) : EReal) := by
    funext x
    unfold scN
    by_cases h : x < 4096
    · rw [dif_pos h, dif_pos h]
      simp only [hqa, hka, ← EReal.coe_mul, ← coe_sum]
      refine congrArg _ ?_
      rw [Finset.sum_div]
      refine Finset.sum_congr rfl (fun d _ => ?_)
      ring
    · rw [dif_neg h, dif_neg h, EReal.coe_zero]
  have hw : (fun x => if h : x < 4096 then va (ix2 (⟨x, h⟩ : Fin 4096) e) else (0 : EReal))
      = fun x => ((vN xv wv e x : ℝ) : EReal) := by
    funext x
    unfold vN
    by_cases h : x < 4096
    · rw [dif_pos h, dif_pos h, hva]
    · rw [dif_neg h, dif_neg h, EReal.coe_zero]
  rw [hs, hw]
  unfold out
  exact rowOut_eq 1024 4 (by norm_num) (by norm_num) _ _ 0

end Cert.KernelReal

end
-- ==== Proof.Bridge.lean ====
/-
  The idealized kernel's result on real inputs.

  The result array is what the attention kernel's write-backs leave; the attention kernel read the three arrays the
  projection kernel left; those are the projections of the inputs as launched. On real inputs the result at `(q, e)` is
  therefore the model's output.
-/
import proofs.«415637_j66340064854151_3_alg».proof.Proof.RunVals
import proofs.«415637_j66340064854151_3_alg».proof.Proof.ProjValue
import proofs.«415637_j66340064854151_3_alg».proof.Proof.AttnValue
import proofs.«415637_j66340064854151_3_alg».proof.Proof.KernelReal

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Cert.AttnModel

variable (m : (ℓ : Loc nD τ sig) → Buf (Elt Ideal) ℓ) (ρ : Dev nD → PrngReg)

/-- The six inputs as launched and the result array after the run, at their literal types. -/
abbrev in0 (c : Dev nD) : FVec Ideal S4096x1024 .f32 := m ((c.tc : Thread nD τ).loc main_arg0)
abbrev in1 (c : Dev nD) : FVec Ideal S4096x1024 .f32 := m ((c.tc : Thread nD τ).loc main_arg1)
abbrev in2 (c : Dev nD) : FVec Ideal S4096x1024 .f32 := m ((c.tc : Thread nD τ).loc main_arg2)
abbrev in3 (c : Dev nD) : FVec Ideal S1024x1024 .f32 := m ((c.tc : Thread nD τ).loc main_arg3)
abbrev in4 (c : Dev nD) : FVec Ideal S1024x1024 .f32 := m ((c.tc : Thread nD τ).loc main_arg4)
abbrev in5 (c : Dev nD) : FVec Ideal S1024x1024 .f32 := m ((c.tc : Thread nD τ).loc main_arg5)
abbrev res (c : Dev nD) : FVec Ideal S4096x1024 .f32 := W2 m ρ c (Proc.devRef .tc main_v1)

/-- The arrays the attention kernel reads are the ones the projection kernel left. -/
theorem q_link (c : Dev nD) : AttnValue.qIn (V1 m ρ) c = ProjValue.qOut (V0 m ρ) c := W1_arr m ρ c 6
theorem k_link (c : Dev nD) : AttnValue.kIn (V1 m ρ) c = ProjValue.kOut (V0 m ρ) c := W1_arr m ρ c 7
theorem v_link (c : Dev nD) : AttnValue.vIn (V1 m ρ) c = ProjValue.vOut (V0 m ρ) c := W1_arr m ρ c 8
/-- The result array is what the attention kernel's write-backs leave. -/
theorem res_link (c : Dev nD) : res m ρ c = AttnValue.oOut (V1 m ρ) c := W2_arr m ρ c 3

/-- On real inputs the kernel's result at `(q, e)` is the model's output. -/
theorem kernel_out (c : Dev nD) (xq xk xv : RA) (wq wk wv : RW)
    (h0 : ∀ r d, in0 m c (ix2 r d) = (xq r d : EReal)) (h1 : ∀ r d, in1 m c (ix2 r d) = (xk r d : EReal))
    (h2 : ∀ r d, in2 m c (ix2 r d) = (xv r d : EReal)) (h3 : ∀ r d, in3 m c (ix2 r d) = (wq r d : EReal))
    (h4 : ∀ r d, in4 m c (ix2 r d) = (wk r d : EReal)) (h5 : ∀ r d, in5 m c (ix2 r d) = (wv r d : EReal))
    (q : Fin 4096) (e : Fin 1024) :
    res m ρ c (ix2 q e) = ((Cert.AttnModel.out xq xk xv wq wk wv q e : ℝ) : EReal) := by
  rw [res_link, AttnValue.o_arr]
  refine Cert.KernelReal.kernel_row (in0 m c) (in1 m c) (in2 m c) (in3 m c) (in4 m c) (in5 m c)
    (AttnValue.qIn (V1 m ρ) c) (AttnValue.kIn (V1 m ρ) c) (AttnValue.vIn (V1 m ρ) c)
    xq xk xv wq wk wv h0 h1 h2 h3 h4 h5 ?_ ?_ ?_ q e
  · intro r e'
    rw [q_link]; exact ProjValue.q_arr (V0 m ρ) c r e'
  · intro r e'
    rw [k_link]; exact ProjValue.k_arr (V0 m ρ) c r e'
  · intro r e'
    rw [v_link]; exact ProjValue.v_arr (V0 m ρ) c r e'

end Cert.KernelIdeal.Bridge

end
-- ==== Proof.Finite.lean ====
/-
  Finite inputs are real inputs.

  The precondition says of each of the six input arrays that every entry's absolute value is below +∞. On the extended
  reals that makes every entry a real number.
-/
import proofs.«415637_j66340064854151_3_alg».proof.Pre_finite_inputs
import proofs.«415637_j66340064854151_3_alg».proof.Proof.Gen.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

/-- The f32 pattern `0x7F800000` denotes +∞. -/
private theorem inf_eq_top : Ideal.ofBits .f32 0x7F800000#32 = (⊤ : EReal) := by
  simp [Ideal.ofBits, Ideal.ieee]

/-- An extended real whose absolute value `max x (-x)` is strictly below +∞ is a real: both infinities have
    absolute value +∞. -/
private theorem real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- The result shape of a reduction over all axes has one index. -/
private instance : Subsingleton S_.Idx := ⟨fun a b => funext fun d => d.elim0⟩

/-- One array: if the conjunction over all entries of `|x| < +∞` is true, every entry is a real. -/
private theorem real_of_all {s : Shape} {axes : List (Fin s.rank)} (x : FVec Ideal s .f32)
    (bc : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] bc (constant (F := Ideal) S_ .f32 0x7F800000#32)))
        init hr hu ValueIdx.ix0 = 1#1) :
    ∀ i, ∃ r : ℝ, x i = (r : EReal) := by
  intro i
  have hi := Host.reduce_andi_all _ init hr hu ValueIdx.ix0 e i
  refine real_of_abs_lt_top (x i) ?_
  rw [← inf_eq_top]
  exact hi

/-- If the finiteness predicate holds of six arrays of extended reals, every entry of each is a real. -/
theorem real_of_fn [Cert.Pre_finite_inputs.Facts]
    (a0 a1 a2 : FVec Ideal S4096x1024 .f32) (a3 a4 a5 : FVec Ideal S1024x1024 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  -- the result is the conjunction ((((c0 ∧ c1) ∧ c2) ∧ c3) ∧ c4) ∧ c5 of the six arrays' conditions
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ _ h0', real_of_all a1 _ _ _ _ h1, real_of_all a2 _ _ _ _ h2,
    real_of_all a3 _ _ _ _ h3, real_of_all a4 _ _ _ _ h4, real_of_all a5 _ _ _ _ h5⟩

end Cert.FiniteInputs

end
-- ==== Proof.RefValue.lean ====
/-
  The reference at an index, on real inputs.

  The reference projects the three inputs, forms the 4096 × 4096 scores divided by 32, subtracts each row's maximum,
  exponentiates, divides by the row sum and multiplies by the projected values. On real inputs every stage is real, the row
  maximum is some real shift, and the result at `(q, e)` is the softmax-weighted mean of the model.
-/
import proofs.«415637_j66340064854151_3_alg».proof.Proof.Gen.ReferenceIdeal.Read
import proofs.«415637_j66340064854151_3_alg».proof.Proof.Model
import proofs.«415637_j66340064854151_3_alg».proof.Proof.LibDotNT
import proofs.«415637_j66340064854151_3_alg».proof.Proof.LibPlainDot

noncomputable section

namespace Cert.ReferenceIdeal.RefValue

open Cert.ReferenceIdeal Cert.ReferenceIdeal.Gen Idealize.ShloMosaic Idealize.ShloMosaic.ValueIdx Cert.AttnModel

/-! ### The index maps of the stages, at explicit coordinates -/

private theorem lidx_v0 (r : Fin 4096) (e k : Fin 1024) : Read.lidx_main_v0 (ix2 r e) k = ix2 r k :=
  funext fun a => Fin.ext (by match a with | ⟨0, _⟩ => rfl | ⟨1, _⟩ => rfl)
private theorem ridx_v0 (r : Fin 4096) (e k : Fin 1024) : Read.ridx_main_v0 (ix2 r e) k = ix2 e k :=
  funext fun a => Fin.ext (by match a with | ⟨0, _⟩ => rfl | ⟨1, _⟩ => rfl)
private theorem lidx_v1 (r : Fin 4096) (e k : Fin 1024) : Read.lidx_main_v1 (ix2 r e) k = ix2 r k :=
  funext fun a => Fin.ext (by match a with | ⟨0, _⟩ => rfl | ⟨1, _⟩ => rfl)
private theorem ridx_v1 (r : Fin 4096) (e k : Fin 1024) : Read.ridx_main_v1 (ix2 r e) k = ix2 e k :=
  funext fun a => Fin.ext (by match a with | ⟨0, _⟩ => rfl | ⟨1, _⟩ => rfl)
private theorem lidx_v2 (r : Fin 4096) (e k : Fin 1024) : Read.lidx_main_v2 (ix2 r e) k = ix2 r k :=
  funext fun a => Fin.ext (by match a with | ⟨0, _⟩ => rfl | ⟨1, _⟩ => rfl)
private theorem ridx_v2 (r : Fin 4096) (e k : Fin 1024) : Read.ridx_main_v2 (ix2 r e) k = ix2 e k :=
  funext fun a => Fin.ext (by match a with | ⟨0, _⟩ => rfl | ⟨1, _⟩ => rfl)
private theorem lidx_v3 (q k : Fin 4096) (d : Fin 1024) : Read.lidx_main_v3 (ix2 q k) d = ix2 q d :=
  funext fun a => Fin.ext (by match a with | ⟨0, _⟩ => rfl | ⟨1, _⟩ => rfl)
private theorem ridx_v3 (q k : Fin 4096) (d : Fin 1024) : Read.ridx_main_v3 (ix2 q k) d = ix2 k d :=
  funext fun a => Fin.ext (by match a with | ⟨0, _⟩ => rfl | ⟨1, _⟩ => rfl)
private theorem idx_v9_v10 (q k : Fin 4096) : Read.idx_main_v9 (Read.idx_main_v10 (ix2 q k)) = ix1 q :=
  funext fun a => Fin.ext (by match a with | ⟨0, _⟩ => rfl)
private theorem idx_v13 (q k : Fin 4096) : Read.idx_main_v13 (ix1 q) k = ix2 q k :=
  funext fun a => Fin.ext (by match a with | ⟨0, _⟩ => rfl | ⟨1, _⟩ => rfl)
private theorem idx_v14_v15 (q k : Fin 4096) : Read.idx_main_v14 (Read.idx_main_v15 (ix2 q k)) = ix1 q :=
  funext fun a => Fin.ext (by match a with | ⟨0, _⟩ => rfl)
private theorem lidx_v17 (q : Fin 4096) (e : Fin 1024) (k : Fin 4096) : Read.lidx_main_v17 (ix2 q e) k = ix2 q k :=
  funext fun a => Fin.ext (by match a with | ⟨0, _⟩ => rfl | ⟨1, _⟩ => rfl)
private theorem ridx_v17 (q : Fin 4096) (e : Fin 1024) (k : Fin 4096) : Read.ridx_main_v17 (ix2 q e) k = ix2 k e :=
  funext fun a => Fin.ext (by match a with | ⟨0, _⟩ => rfl | ⟨1, _⟩ => rfl)

/-- A row index of the score matrix with the column `k` put back is `(q, k)`. -/
private theorem lift_row (h : S4096x4096.Reduces [1] S4096) (q : Fin 4096) (k : Fin (S4096x4096.size 1)) :
    h.lift (ix1 q) k = ix2 q (⟨k.val, k.isLt⟩ : Fin 4096) := by
  funext c; apply Fin.ext
  fin_cases c <;> rfl

/-! ### The three constants -/

/-- The divisor of the scores is the real 32. -/
private theorem cst32 : Ideal.ofBits .f32 0x42000000#32 = ((32 : ℝ) : EReal) := by
  simp [Ideal.ofBits, Ideal.ieee, -EReal.coe_mul]; norm_num

/-- The starting value of the row maximum is `-∞`. -/
private theorem cstNegInf : Ideal.ofBits .f32 0xFF800000#32 = (⊥ : EReal) := by
  simp [Ideal.ofBits, Ideal.ieee]

/-! ### The projections -/

/-- On real arrays a projection at `(r, e)` is the real `∑ d, x r d * w e d`. -/
private theorem proj_v0 (x : FVec Ideal S4096x1024 .f32) (w : FVec Ideal S1024x1024 .f32) (xr : RA) (wr : RW)
    (hx : ∀ r d, x (ix2 r d) = (xr r d : EReal)) (hw : ∀ r d, w (ix2 r d) = (wr r d : EReal))
    (r : Fin 4096) (e : Fin 1024) :
    Read.val_main_v0 (F := Ideal) x w (ix2 r e) = ((proj xr wr r e : ℝ) : EReal) := by
  rw [Read.val_main_v0_apply]
  show _ = ((∑ d : Fin 1024, xr r d * wr e d : ℝ) : EReal)
  rw [Cert.FlashSpec.coe_sum]
  refine Finset.sum_congr rfl fun k _ => ?_
  rw [lidx_v0, ridx_v0, hx, hw, EReal.coe_mul]

/-- On real arrays a projection at `(r, e)` is the real `∑ d, x r d * w e d`. -/
private theorem proj_v1 (x : FVec Ideal S4096x1024 .f32) (w : FVec Ideal S1024x1024 .f32) (xr : RA) (wr : RW)
    (hx : ∀ r d, x (ix2 r d) = (xr r d : EReal)) (hw : ∀ r d, w (ix2 r d) = (wr r d : EReal))
    (r : Fin 4096) (e : Fin 1024) :
    Read.val_main_v1 (F := Ideal) x w (ix2 r e) = ((proj xr wr r e : ℝ) : EReal) := by
  rw [Read.val_main_v1_apply]
  show _ = ((∑ d : Fin 1024, xr r d * wr e d : ℝ) : EReal)
  rw [Cert.FlashSpec.coe_sum]
  refine Finset.sum_congr rfl fun k _ => ?_
  rw [lidx_v1, ridx_v1, hx, hw, EReal.coe_mul]

/-- On real arrays a projection at `(r, e)` is the real `∑ d, x r d * w e d`. -/
private theorem proj_v2 (x : FVec Ideal S4096x1024 .f32) (w : FVec Ideal S1024x1024 .f32) (xr : RA) (wr : RW)
    (hx : ∀ r d, x (ix2 r d) = (xr r d : EReal)) (hw : ∀ r d, w (ix2 r d) = (wr r d : EReal))
    (r : Fin 4096) (e : Fin 1024) :
    Read.val_main_v2 (F := Ideal) x w (ix2 r e) = ((proj xr wr r e : ℝ) : EReal) := by
  rw [Read.val_main_v2_apply]
  show _ = ((∑ d : Fin 1024, xr r d * wr e d : ℝ) : EReal)
  rw [Cert.FlashSpec.coe_sum]
  refine Finset.sum_congr rfl fun k _ => ?_
  rw [lidx_v2, ridx_v2, hx, hw, EReal.coe_mul]

/-! ### The scores -/

/-- The scaled score at `(q, k)` is the model's. -/
private theorem score_read (a0 a1 : FVec Ideal S4096x1024 .f32) (a3 a4 : FVec Ideal S1024x1024 .f32)
    (xq xk : RA) (wq wk : RW)
    (h0 : ∀ r d, a0 (ix2 r d) = (xq r d : EReal)) (h1 : ∀ r d, a1 (ix2 r d) = (xk r d : EReal))
    (h3 : ∀ r d, a3 (ix2 r d) = (wq r d : EReal)) (h4 : ∀ r d, a4 (ix2 r d) = (wk r d : EReal))
    (q k : Fin 4096) :
    Read.val_main_v5 (F := Ideal) a0 a1 a3 a4 (ix2 q k) = ((scN xq xk wq wk q k.val : ℝ) : EReal) := by
  have hs : scN xq xk wq wk q k.val = (∑ d : Fin 1024, proj xq wq q d * proj xk wk k d) * (1 / 32) := by
    unfold scN
    simp only [dif_pos k.isLt, Fin.eta]
    rw [div_eq_mul_one_div]
  rw [Read.val_main_v5_apply, Read.val_main_v3_apply, Read.val_main_v4_apply, Read.val_main_cst_apply,
    Ideal.hostDivf_def, Ideal.ofBits_def, cst32, Ideal.div_coe (by norm_num : (32 : ℝ) ≠ 0), hs, EReal.coe_mul,
    Cert.FlashSpec.coe_sum]
  refine congrArg (· * _) (Finset.sum_congr rfl fun d _ => ?_)
  rw [lidx_v3, ridx_v3, proj_v0 a0 a3 xq wq h0 h3, proj_v1 a1 a4 xk wk h1 h4, EReal.coe_mul]

/-! ### The row maximum -/

/-- The maximum over a row whose entries are reals, taken from `-∞`, is some real. -/
private theorem rowfold_real (y : S4096x4096.Idx → Ideal .f32) (init : S_.Idx → Ideal .f32)
    (h' : S4096x4096.ReducesTo [1] S4096) (hu : 0 < S_.numel) (hinit : init (Shape.Idx.first hu) = (⊥ : EReal))
    (sc : ℕ → ℝ) (q : Fin 4096) (hy : ∀ k : Fin 4096, y (ix2 q k) = ((sc k.val : ℝ) : EReal)) :
    ∃ M : ℝ, Host.reduce FloatOps.maximumf y init h' hu (ix1 q) = (M : EReal) := by
  have hR : S4096x4096.Reduces [1] S4096 := by decide
  rw [Host.reduce_eq_fold_single FloatOps.maximumf y init h' hR hu, hinit]
  obtain ⟨μ, hμ⟩ := Cert.FlashSpec.fold_max_real 4096 (by norm_num) (fun k : Fin 4096 => sc k.val) ⊥ (Or.inl rfl)
  refine ⟨μ, Eq.trans ?_ hμ⟩
  have hf : (y ∘ hR.lift (ix1 q)) = fun k : Fin 4096 => ((sc k.val : ℝ) : EReal) :=
    funext fun k => (congrArg y (lift_row hR q k)).trans (hy _)
  exact congrArg (fun f => Finset.fold max (⊥ : EReal) f (Finset.univ : Finset (Fin 4096))) hf

/-- The shift the reference subtracts from row `q` is some real. -/
private theorem rowmax_real (a0 a1 : FVec Ideal S4096x1024 .f32) (a3 a4 : FVec Ideal S1024x1024 .f32)
    (xq xk : RA) (wq wk : RW)
    (h0 : ∀ r d, a0 (ix2 r d) = (xq r d : EReal)) (h1 : ∀ r d, a1 (ix2 r d) = (xk r d : EReal))
    (h3 : ∀ r d, a3 (ix2 r d) = (wq r d : EReal)) (h4 : ∀ r d, a4 (ix2 r d) = (wk r d : EReal))
    (q : Fin 4096) :
    ∃ M : ℝ, Read.val_main_v8 (F := Ideal) a0 a1 a3 a4 (ix1 q) = (M : EReal) := by
  have hv6 : ∃ M : ℝ, Read.val_main_v6 (F := Ideal) a0 a1 a3 a4 (ix1 q) = (M : EReal) := by
    unfold Read.val_main_v6
    exact rowfold_real _ _ _ _ (by rw [Read.val_main_cst_0_apply, Ideal.ofBits_def, cstNegInf])
      (scN xq xk wq wk q) q (score_read a0 a1 a3 a4 xq xk wq wk h0 h1 h3 h4 q)
  obtain ⟨M, hM⟩ := hv6
  refine ⟨M, ?_⟩
  rw [Read.val_main_v8_apply, Read.val_main_v7_apply, Read.val_main_cst_1_apply, hM, Ideal.maximumf_def,
    Ideal.ofBits_def, cstNegInf]
  exact max_eq_right bot_le

/-! ### The exponentials, their row sum and the weights -/

/-- The exponential at `(q, k)`: of the score less the row's shift. -/
private theorem exp_read (a0 a1 : FVec Ideal S4096x1024 .f32) (a3 a4 : FVec Ideal S1024x1024 .f32)
    (xq xk : RA) (wq wk : RW)
    (h0 : ∀ r d, a0 (ix2 r d) = (xq r d : EReal)) (h1 : ∀ r d, a1 (ix2 r d) = (xk r d : EReal))
    (h3 : ∀ r d, a3 (ix2 r d) = (wq r d : EReal)) (h4 : ∀ r d, a4 (ix2 r d) = (wk r d : EReal))
    (q k : Fin 4096) :
    Read.val_main_v12 (F := Ideal) a0 a1 a3 a4 (ix2 q k)
      = Ideal.exp (((scN xq xk wq wk q k.val : ℝ) : EReal) - Read.val_main_v8 (F := Ideal) a0 a1 a3 a4 (ix1 q)) := by
  rw [Read.val_main_v12_apply, Read.val_main_v11_apply, Read.val_main_v10_apply, Read.val_main_v9_apply,
    idx_v9_v10, score_read a0 a1 a3 a4 xq xk wq wk h0 h1 h3 h4 q k, Ideal.hostUnary_exp_def, Ideal.subf_def]

/-- The row sum of the exponentials, started from zero. -/
private theorem sum_read (a0 a1 : FVec Ideal S4096x1024 .f32) (a3 a4 : FVec Ideal S1024x1024 .f32)
    (xq xk : RA) (wq wk : RW)
    (h0 : ∀ r d, a0 (ix2 r d) = (xq r d : EReal)) (h1 : ∀ r d, a1 (ix2 r d) = (xk r d : EReal))
    (h3 : ∀ r d, a3 (ix2 r d) = (wq r d : EReal)) (h4 : ∀ r d, a4 (ix2 r d) = (wk r d : EReal))
    (q : Fin 4096) :
    Read.val_main_v13 (F := Ideal) a0 a1 a3 a4 (ix1 q)
      = (0 : EReal) + ∑ k : Fin 4096,
          Ideal.exp (((scN xq xk wq wk q k.val : ℝ) : EReal) - Read.val_main_v8 (F := Ideal) a0 a1 a3 a4 (ix1 q)) := by
  rw [Read.val_main_v13_apply, Read.val_main_cst_2_apply, Ideal.ofBits_def, Ideal.ofBits_zero_f32]
  refine congrArg (_ + ·) (Finset.sum_congr rfl fun k _ => ?_)
  rw [idx_v13, exp_read a0 a1 a3 a4 xq xk wq wk h0 h1 h3 h4 q k]

/-- The softmax weight at `(q, k)`: the exponential over the row sum. -/
private theorem weight_read (a0 a1 : FVec Ideal S4096x1024 .f32) (a3 a4 : FVec Ideal S1024x1024 .f32)
    (xq xk : RA) (wq wk : RW)
    (h0 : ∀ r d, a0 (ix2 r d) = (xq r d : EReal)) (h1 : ∀ r d, a1 (ix2 r d) = (xk r d : EReal))
    (h3 : ∀ r d, a3 (ix2 r d) = (wq r d : EReal)) (h4 : ∀ r d, a4 (ix2 r d) = (wk r d : EReal))
    (q k : Fin 4096) :
    Read.val_main_v16 (F := Ideal) a0 a1 a3 a4 (ix2 q k)
      = Ideal.div
          (Ideal.exp (((scN xq xk wq wk q k.val : ℝ) : EReal) - Read.val_main_v8 (F := Ideal) a0 a1 a3 a4 (ix1 q)))
          ((0 : EReal) + ∑ k' : Fin 4096,
            Ideal.exp (((scN xq xk wq wk q k'.val : ℝ) : EReal) - Read.val_main_v8 (F := Ideal) a0 a1 a3 a4 (ix1 q))) := by
  rw [Read.val_main_v16_apply, Read.val_main_v15_apply, Read.val_main_v14_apply, idx_v14_v15,
    exp_read a0 a1 a3 a4 xq xk wq wk h0 h1 h3 h4 q k, sum_read a0 a1 a3 a4 xq xk wq wk h0 h1 h3 h4 q, Ideal.hostDivf_def]

/-! ### The result -/

/-- On arrays whose entries are the reals `xq … wv`, the reference's result at `(q, e)` is the model's output. -/
theorem ref_out [Cert.ReferenceIdeal.Facts]
    (a0 a1 a2 : FVec Ideal S4096x1024 .f32) (a3 a4 a5 : FVec Ideal S1024x1024 .f32)
    (xq xk xv : RA) (wq wk wv : RW)
    (h0 : ∀ r d, a0 (ix2 r d) = (xq r d : EReal)) (h1 : ∀ r d, a1 (ix2 r d) = (xk r d : EReal))
    (h2 : ∀ r d, a2 (ix2 r d) = (xv r d : EReal)) (h3 : ∀ r d, a3 (ix2 r d) = (wq r d : EReal))
    (h4 : ∀ r d, a4 (ix2 r d) = (wk r d : EReal)) (h5 : ∀ r d, a5 (ix2 r d) = (wv r d : EReal))
    (q : Fin 4096) (e : Fin 1024) :
    Cert.ReferenceIdeal.Read.val_main_v17 (F := Ideal) a0 a1 a2 a3 a4 a5 (ix2 q e)
      = ((Cert.AttnModel.out xq xk xv wq wk wv q e : ℝ) : EReal) := by
  obtain ⟨M, hM⟩ := rowmax_real a0 a1 a3 a4 xq xk wq wk h0 h1 h3 h4 q
  rw [Read.val_main_v17_apply]
  unfold Cert.AttnModel.out
  rw [← Cert.FlashSpec.softmax_row 4096 (by norm_num) (scN xq xk wq wk q) (vN xv wv e)
    (Read.val_main_v8 (F := Ideal) a0 a1 a3 a4 (ix1 q)) ⟨M, hM⟩ 0]
  refine Finset.sum_congr rfl fun k _ => ?_
  have hv : vN xv wv e k.val = proj xv wv k e := by
    unfold vN
    simp only [dif_pos k.isLt, Fin.eta]
  rw [lidx_v17, ridx_v17, weight_read a0 a1 a3 a4 xq xk wq wk h0 h1 h3 h4 q k, proj_v2 a2 a5 xv wv h2 h5 k e, hv]

end Cert.ReferenceIdeal.RefValue

end
-- ==== Proof.lean ====
/-
  Softmax attention with fused projections, computed chunk by chunk, against the one-shot reference.

  The kernel projects the three inputs through their weight matrices (the queries also scaled by 1/32, the reciprocal of
  the square root of the model width 1024) and then, for each block of 512 query rows, runs over the 4096 key positions in
  four chunks of 1024, carrying a running row maximum `m`, denominator `l` and numerator `a`: a chunk with scores `s`
  replaces `m` by `m' = max m (max s)`, `l` by `e^(m - m') · l + ∑ e^(s - m')` and `a` by `e^(m - m') · a + ∑ e^(s - m') · v`, from
  `m = -∞, l = 0, a = 0`; the output is `a · (1 / l)`. The reference projects, divides the 4096 × 4096 scores by 32, subtracts
  each row's maximum, exponentiates, divides by the row sum and multiplies by the projected values.

  On the extended reals a change of float format is the identity and a matrix product is its sum, so on FINITE inputs (which
  the precondition gives: every entry a real) every intermediate value is a real, `1/32` is exact, and both programs
  compute, at `(q, e)`, the softmax-weighted mean `(∑ x, e^(s x - M) · v x) / (∑ x, e^(s x - M))` of column `e` of the projected
  values under row `q`'s scaled scores — a number that does not depend on the shift `M`, which is the reference's row maximum
  on one side and the kernel's last running maximum on the other (`e^(m - m') · e^(s - m) = e^(s - m')` makes the running sums
  the sums at the newest shift). Finiteness is used: the distributive steps fail at the infinities.

  The frames of the two kernels' programs are the generated ones; the reference's is its generated run with the result
  dropped; the idealization rewrote nothing, so `preserves` is trivial.
-/
import proofs.«415637_j66340064854151_3_alg».proof.Defs
import proofs.«415637_j66340064854151_3_alg».proof.Proof.Gen.Kernel
import proofs.«415637_j66340064854151_3_alg».proof.Proof.Gen.Kernel.Skeleton
import proofs.«415637_j66340064854151_3_alg».proof.Proof.Gen.Kernel.Loops
import proofs.«415637_j66340064854151_3_alg».proof.Proof.Gen.Kernel.Launch
import proofs.«415637_j66340064854151_3_alg».proof.Proof.Gen.Kernel.Points
import proofs.«415637_j66340064854151_3_alg».proof.Proof.Gen.Kernel.Frame
import proofs.«415637_j66340064854151_3_alg».proof.Proof.Gen.KernelIdeal
import proofs.«415637_j66340064854151_3_alg».proof.Proof.Gen.KernelIdeal.Skeleton
import proofs.«415637_j66340064854151_3_alg».proof.Proof.Gen.KernelIdeal.Loops
import proofs.«415637_j66340064854151_3_alg».proof.Proof.Gen.KernelIdeal.Launch
import proofs.«415637_j66340064854151_3_alg».proof.Proof.Gen.KernelIdeal.Points
import proofs.«415637_j66340064854151_3_alg».proof.Proof.Gen.KernelIdeal.Frame
import proofs.«415637_j66340064854151_3_alg».proof.Proof.Gen.ReferenceIdeal
import proofs.«415637_j66340064854151_3_alg».proof.Proof.Gen.Pre_finite_inputs
import proofs.«415637_j66340064854151_3_alg».proof.Proof.Gen.ReferenceIdeal.Run
import proofs.«415637_j66340064854151_3_alg».proof.Proof.Gen.ReferenceIdeal.Read
import proofs.«415637_j66340064854151_3_alg».proof.Proof.Bridge
import proofs.«415637_j66340064854151_3_alg».proof.Proof.Finite
import proofs.«415637_j66340064854151_3_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array holding, at `(q, e)`, the model's output on the real inputs the
    precondition provides: the kernel's by its two regions' values, the reference's by its stages read at an index. -/
theorem algebraic : Cert.algebraic_KernelIdeal_ReferenceIdeal := by
  intro m ρ m' ρ' hpre hagree
  refine ⟨fun c => Cert.KernelIdeal.Gen.W2 m ρ c (Proc.devRef .tc Cert.KernelIdeal.main_v1),
    Cert.KernelIdeal.RunVals.run_vals m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4, f5⟩ := Cert.FiniteInputs.real_of_fn _ _ _ _ _ _ (hpre c)
  choose g0 hg0 using f0
  choose g1 hg1 using f1
  choose g2 hg2 using f2
  choose g3 hg3 using f3
  choose g4 hg4 using f4
  choose g5 hg5 using f5
  rw [Cert.ReferenceIdeal.Read.val_main_v17_eq, (hagree c).1, (hagree c).2.1, (hagree c).2.2.1, (hagree c).2.2.2.1,
    (hagree c).2.2.2.2.1, (hagree c).2.2.2.2.2]
  funext i
  obtain ⟨q, e, rfl⟩ : ∃ (q : Fin 4096) (e : Fin 1024), i = ix2 q e := ⟨i 0, i 1, eq_ix2 i⟩
  rw [Cert.ReferenceIdeal.RefValue.ref_out _ _ _ _ _ _
    (fun r d => g0 (ix2 r d)) (fun r d => g1 (ix2 r d)) (fun r d => g2 (ix2 r d))
    (fun r d => g3 (ix2 r d)) (fun r d => g4 (ix2 r d)) (fun r d => g5 (ix2 r d))
    (fun r d => hg0 _) (fun r d => hg1 _) (fun r d => hg2 _) (fun r d => hg3 _) (fun r d => hg4 _) (fun r d => hg5 _) q e]
  exact (Cert.KernelIdeal.Bridge.kernel_out m ρ c
    (fun r d => g0 (ix2 r d)) (fun r d => g1 (ix2 r d)) (fun r d => g2 (ix2 r d))
    (fun r d => g3 (ix2 r d)) (fun r d => g4 (ix2 r d)) (fun r d => g5 (ix2 r d))
    (fun r d => hg0 _) (fun r d => hg1 _) (fun r d => hg2 _) (fun r d => hg3 _) (fun r d => hg4 _) (fun r d => hg5 _) q e).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
